-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100000x3 : Shape := ⟨3, ![2, 100000, 3]⟩
abbrev S3x64 : Shape := ⟨2, ![3, 64]⟩
abbrev S64 : Shape := ⟨1, ![64]⟩
abbrev S4x64 : Shape := ⟨2, ![4, 64]⟩
abbrev S_ : Shape := ⟨0, ![]⟩

class Facts : Prop where
  bcast_S_S2x100000x3 : S_.BroadcastsInDim S2x100000x3 (![] : Fin 0 → Fin S2x100000x3.rank)
  reducesTo_S2x100000x3_S_d0_1_2 : S2x100000x3.ReducesTo [0, 1, 2] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S4x64 .f32) (main_arg5 : FVec F S64 .f32) (main_arg6 : IVec S_ 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 4294967292#32
  let main_v29 : IVec S_ 1 := cmpi .sge main_arg6 main_c_10
  let main_v30 : IVec S_ 1 := andi main_v28 main_v29
  let main_c_11 : IVec S_ 32 := constantI S_ 32 4#32
  let main_v31 : IVec S_ 1 := cmpi .slt main_arg6 main_c_11
  let main_v32 : IVec S_ 1 := andi main_v30 main_v31
  main_v32

def fn {F : FTy → Type} [FloatOps F] (main_arg0 : FVec F S2x100000x3 .f32) (main_arg1 : FVec F S2x100000x3 .f32) (main_arg2 : FVec F S3x64 .f32) (main_arg3 : FVec F S64 .f32) (main_arg4 : FVec F S4x64 .f32) (main_arg5 : FVec F S64 .f32) (main_arg6 : IVec S_ 32) : IVec S_ 1 :=
  let main_v0 : FVec F S2x100000x3 .f32 := Host.absf main_arg0
  let main_cst : FVec F S_ .f32 := constant S_ .f32 0x7F800000#32
  let main_v1 : FVec F S2x100000x3 .f32 := broadcastInDim S2x100000x3 ![] bcast_S_S2x100000x3 main_cst
  let main_v2 : IVec S2x100000x3 1 := cmpf .olt main_v0 main_v1
  let main_c : IVec S_ 1 := constantI S_ 1 1#1
  let main_v3 : IVec S_ 1 := (fun x v => Host.reduce IntOp.andi x v reducesTo_S2x100000x3_S_d0_1_2 h_S_) main_v2 main_c
  let main_v4 : FVec F S2x100000x3 .f32 := Host.absf main_arg1
  let main_cst_0 : FVec F S_ .f32 := constant S_ .f32 0x7F800000#32
  let main_v5 : FVec F S2x100000x3 .f32 := broadcastInDim S2x100000x3 ![] bcast_S_S2x100000x3 main_cst_0
  let main_v6 : IVec S2x100000x3 1 := cmpf .olt main_v4 main_v5
  let main_c_1 : IVec S_ 1 := constantI S_ 1 1#1
  let main_v7 : IVec S_ 1 := (fun x v => Host.reduce IntOp.andi x v reducesTo_S2x100000x3_S_d0_1_2 h_S_) main_v6 main_c_1
  let main_v8 : IVec S_ 1 := andi main_v3 main_v7
  let main_v9 : FVec F S3x64 .f32 := Host.absf main_arg2
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S2x100000x3 : Shape := ⟨3, ![2, 100000, 3]⟩
abbrev S3x64 : Shape := ⟨2, ![3, 64]⟩
abbrev S64 : Shape := ⟨1, ![64]⟩
abbrev S4x64 : Shape := ⟨2, ![4, 64]⟩
abbrev S_ : Shape := ⟨0, ![]⟩
abbrev S2x100000x1 : Shape := ⟨3, ![2, 100000, 1]⟩
abbrev S2x100000 : Shape := ⟨2, ![2, 100000]⟩
abbrev S2 : Shape := ⟨1, ![2]⟩
abbrev S2x1 : Shape := ⟨2, ![2, 1]⟩
abbrev S200000 : Shape := ⟨1, ![200000]⟩
abbrev S200000x3 : Shape := ⟨2, ![200000, 3]⟩
abbrev S200000x64 : Shape := ⟨2, ![200000, 64]⟩
abbrev S1x64 : Shape := ⟨2, ![1, 64]⟩
abbrev S524288x64 : Shape := ⟨2, ![524288, 64]⟩
abbrev S200000x1 : Shape := ⟨2, ![200000, 1]⟩
abbrev S524288 : Shape := ⟨1, ![524288]⟩
abbrev S524288x1 : Shape := ⟨2, ![524288, 1]⟩
abbrev S4096x64 : Shape := ⟨2, ![4096, 64]⟩
abbrev S4096x1 : Shape := ⟨2, ![4096, 1]⟩
abbrev S2x512x512x64 : Shape := ⟨4, ![2, 512, 512, 64]⟩

abbrev nBuf : Space → Nat
  | .hbm => 166
  | .vmem => 11
  | .smem => 0
  | _ => 0

abbrev hbmTy0_0 (i : Nat) : BufTy := match i % 128 with
  | 0 => ⟨S2x100000x3, .f32⟩
  | 1 => ⟨S2x100000x3, .f32⟩
  | 2 => ⟨S3x64, .f32⟩
  | 3 => ⟨S64, .f32⟩
  | 4 => ⟨S4x64, .f32⟩
  | 5 => ⟨S64, .f32⟩
  | 6 => ⟨S_, .i32⟩
  | 7 => ⟨S2x100000x1, .f32⟩
  | 8 => ⟨S2x100000, .f32⟩
  | 9 => ⟨S_, .f32⟩
  | 10 => ⟨S2x100000, .f32⟩
  | 11 => ⟨S2x100000, .f32⟩
  | 12 => ⟨S_, .f32⟩
  | 13 => ⟨S2x100000, .f32⟩
  | 14 => ⟨S2x100000, .f32⟩
  | 15 => ⟨S2x100000, .f32⟩
  | 16 => ⟨S_, .i32⟩
  | 17 => ⟨S_, .i32⟩
  | 18 => ⟨S_, .f32⟩
  | 19 => ⟨S2x100000, .f32⟩
  | 20 => ⟨S2x100000, .f32⟩
  | 21 => ⟨S_, .f32⟩
  | 22 => ⟨S2x100000, .f32⟩
  | 23 => ⟨S2x100000, .f32⟩
  | 24 => ⟨S2x100000, .i32⟩
  | 25 => ⟨S2x100000x1, .f32⟩
  | 26 => ⟨S2x100000, .f32⟩
  | 27 => ⟨S_, .f32⟩
  | 28 => ⟨S2x100000, .f32⟩
  | 29 => ⟨S2x100000, .f32⟩
  | 30 => ⟨S_, .f32⟩
  | 31 => ⟨S2x100000, .f32⟩
  | 32 => ⟨S2x100000, .f32⟩
  | 33 => ⟨S2x100000, .f32⟩
  | 34 => ⟨S_, .i32⟩
  | 35 => ⟨S_, .i32⟩
  | 36 => ⟨S_, .f32⟩
  | 37 => ⟨S2x100000, .f32⟩
  | 38 => ⟨S2x100000, .f32⟩
  | 39 => ⟨S_, .f32⟩
  | 40 => ⟨S2x100000, .f32⟩
  | 41 => ⟨S2x100000, .f32⟩
  | 42 => ⟨S2x100000, .i32⟩
  | 43 => ⟨S2, .i32⟩
  | 44 => ⟨S2x1, .i32⟩
  | 45 => ⟨S_, .i32⟩
  | 46 => ⟨S2x1, .i32⟩
  | 47 => ⟨S2x1, .i32⟩
  | 48 => ⟨S_, .i32⟩
  | 49 => ⟨S2x1, .i32⟩
  | 50 => ⟨S2x1, .i32⟩
  | 51 => ⟨S_, .i32⟩
  | 52 => ⟨S2x100000, .i32⟩
  | 53 => ⟨S2x100000, .i32⟩
  | 54 => ⟨S2x100000, .i32⟩
  | 55 => ⟨S2x100000, .i32⟩
  | 56 => ⟨S2x100000, .i32⟩
  | 57 => ⟨S200000, .i32⟩
  | 58 => ⟨S200000x3, .f32⟩
  | 59 => ⟨S200000x64, .f32⟩
  | 60 => ⟨S1x64, .f32⟩
  | 61 => ⟨S200000x64, .f32⟩
  | 62 => ⟨S200000x64, .f32⟩
  | 63 => ⟨S_, .f32⟩
  | 64 => ⟨S200000x64, .f32⟩
  | 65 => ⟨S200000x64, .f32⟩
  | 66 => ⟨S_, .f32⟩
  | 67 => ⟨S524288x64, .f32⟩
  | 68 => ⟨S200000x1, .i32⟩
  | 69 => ⟨S524288x64, .f32⟩
  | 70 => ⟨S_, .f32⟩
  | 71 => ⟨S200000, .f32⟩
  | 72 => ⟨S_, .f32⟩
  | 73 => ⟨S524288, .f32⟩
  | 74 => ⟨S200000x1, .i32⟩
  | 75 => ⟨S524288, .f32⟩
  | 76 => ⟨S2x100000x1, .f32⟩
  | 77 => ⟨S2x100000, .f32⟩
  | 78 => ⟨S_, .f32⟩
  | 79 => ⟨S2x100000, .f32⟩
  | 80 => ⟨S2x100000, .f32⟩
  | 81 => ⟨S_, .f32⟩
  | 82 => ⟨S2x100000, .f32⟩
  | 83 => ⟨S2x100000, .f32⟩
  | 84 => ⟨S2x100000, .f32⟩
  | 85 => ⟨S_, .i32⟩
  | 86 => ⟨S_, .i32⟩
  | 87 => ⟨S_, .f32⟩
  | 88 => ⟨S2x100000, .f32⟩
  | 89 => ⟨S2x100000, .f32⟩
  | 90 => ⟨S_, .f32⟩
  | 91 => ⟨S2x100000, .f32⟩
  | 92 => ⟨S2x100000, .f32⟩
  | 93 => ⟨S2x100000, .i32⟩
  | 94 => ⟨S2x100000x1, .f32⟩
  | 95 => ⟨S2x100000, .f32⟩
  | 96 => ⟨S_, .f32⟩
  | 97 => ⟨S2x100000, .f32⟩
  | 98 => ⟨S2x100000, .f32⟩
  | 99 => ⟨S_, .f32⟩
  | 100 => ⟨S2x100000, .f32⟩
  | 101 => ⟨S2x100000, .f32⟩
  | 102 => ⟨S2x100000, .f32⟩
  | 103 => ⟨S_, .i32⟩
  | 104 => ⟨S_, .i32⟩
  | 105 => ⟨S_, .f32⟩
  | 106 => ⟨S2x100000, .f32⟩
  | 107 => ⟨S2x100000, .f32⟩
  | 108 => ⟨S_, .f32⟩
  | 109 => ⟨S2x100000, .f32⟩
  | 110 => ⟨S2x100000, .f32⟩
  | 111 => ⟨S2x100000, .i32⟩
  | 112 => ⟨S2, .i32⟩
  | 113 => ⟨S2x1, .i32⟩
  | 114 => ⟨S_, .i32⟩
  | 115 => ⟨S2x1, .i32⟩
  | 116 => ⟨S2x1, .i32⟩
  | 117 => ⟨S_, .i32⟩
  | 118 => ⟨S2x1, .i32⟩
  | 119 => ⟨S2x1, .i32⟩
  | 120 => ⟨S_, .i32⟩
  | 121 => ⟨S2x100000, .i32⟩
  | 122 => ⟨S2x100000, .i32⟩
  | 123 => ⟨S2x100000, .i32⟩
  | 124 => ⟨S2x100000, .i32⟩
  | 125 => ⟨S2x100000, .i32⟩
  | 126 => ⟨S200000, .i32⟩
  | 127 => ⟨S200000x3, .f32⟩
  | _ => ⟨S2x100000x3, .f32⟩

abbrev hbmTy0_1 (i : Nat) : BufTy := match i % 128 with
  | 0 => ⟨S200000x64, .f32⟩
  | 1 => ⟨S1x64, .f32⟩
  | 2 => ⟨S200000x64, .f32⟩
  | 3 => ⟨S200000x64, .f32⟩
  | 4 => ⟨S_, .f32⟩
  | 5 => ⟨S200000x64, .f32⟩
  | 6 => ⟨S200000x64, .f32⟩
  | 7 => ⟨S_, .f32⟩
  | 8 => ⟨S524288x64, .f32⟩
  | 9 => ⟨S200000x1, .i32⟩
  | 10 => ⟨S524288x64, .f32⟩
  | 11 => ⟨S_, .f32⟩
  | 12 => ⟨S200000, .f32⟩
  | 13 => ⟨S_, .f32⟩
  | 14 => ⟨S524288, .f32⟩
  | 15 => ⟨S200000x1, .i32⟩
  | 16 => ⟨S524288, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S1x64, .f32⟩
  | 31 => ⟨S64, .f32⟩
  | 32 => ⟨S64, .f32⟩
  | 33 => ⟨S524288x1, .f32⟩
  | 34 => ⟨S524288x1, .f32⟩
  | 35 => ⟨S1x64, .f32⟩
  | 36 => ⟨S524288x64, .f32⟩
  | 37 => ⟨S2x512x512x64, .f32⟩
  | _ => ⟨S2x100000x3, .f32⟩

abbrev hbmTy (i : Nat) : BufTy := match i / 128 with
  | 0 => hbmTy0_0 i
  | 1 => hbmTy0_1 i
  | _ => ⟨S2x100000x3, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x1, .f32⟩
  | .local _ .vmem, ⟨5, _⟩ => ⟨S4096x1, .f32⟩
  | .local _ .vmem, ⟨6, _⟩ => ⟨S4096x1, .f32⟩
  | .local _ .vmem, ⟨7, _⟩ => ⟨S4096x1, .f32⟩
  | .local _ .vmem, ⟨8, _⟩ => ⟨S1x64, .f32⟩
  | .local _ .vmem, ⟨9, _⟩ => ⟨S4096x64, .f32⟩
  | .local _ .vmem, ⟨10, _⟩ => ⟨S4096x64, .f32⟩
  | _, _ => ⟨S2x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call2_cst : Ref sig .tc := ⟨.hbm, 63, rfl⟩
abbrev main_call2_v0 : Ref sig .tc := ⟨.hbm, 64, rfl⟩
abbrev main_v35 : Ref sig .tc := ⟨.hbm, 65, rfl⟩
abbrev main_cst_9 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_10 : Ref sig .tc := ⟨.hbm, 70, rfl⟩
abbrev main_v39 : Ref sig .tc := ⟨.hbm, 71, rfl⟩
abbrev main_cst_11 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_12 : Ref sig .tc := ⟨.hbm, 78, rfl⟩
abbrev main_v45 : Ref sig .tc := ⟨.hbm, 79, rfl⟩
abbrev main_v46 : Ref sig .tc := ⟨.hbm, 80, rfl⟩
abbrev main_cst_13 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_14 : Ref sig .tc := ⟨.hbm, 85, rfl⟩
abbrev main_c_15 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_16 : Ref sig .tc := ⟨.hbm, 96, rfl⟩
abbrev main_v54 : Ref sig .tc := ⟨.hbm, 97, rfl⟩
abbrev main_v55 : Ref sig .tc := ⟨.hbm, 98, rfl⟩
abbrev main_cst_17 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_18 : Ref sig .tc := ⟨.hbm, 103, rfl⟩
abbrev main_c_19 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_c_20 : Ref sig .tc := ⟨.hbm, 114, rfl⟩
abbrev main_v63 : Ref sig .tc := ⟨.hbm, 115, rfl⟩
abbrev main_v64 : Ref sig .tc := ⟨.hbm, 116, rfl⟩
abbrev main_c_21 : Ref sig .tc := ⟨.hbm, 117, rfl⟩
abbrev main_v65 : Ref sig .tc := ⟨.hbm, 118, rfl⟩
abbrev main_v66 : Ref sig .tc := ⟨.hbm, 119, rfl⟩
abbrev main_c_22 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_call5_cst : Ref sig .tc := ⟨.hbm, 132, rfl⟩
abbrev main_call5_v0 : Ref sig .tc := ⟨.hbm, 133, rfl⟩
abbrev main_v78 : Ref sig .tc := ⟨.hbm, 134, rfl⟩
abbrev main_cst_23 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_24 : Ref sig .tc := ⟨.hbm, 139, rfl⟩
abbrev main_v82 : Ref sig .tc := ⟨.hbm, 140, rfl⟩
abbrev main_cst_25 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_c_26 : Ref sig .tc := ⟨.hbm, 145, rfl⟩
abbrev main_v86 : Ref sig .tc := ⟨.hbm, 146, rfl⟩
abbrev main_c_27 : Ref sig .tc := ⟨.hbm, 147, rfl⟩
abbrev main_v87 : Ref sig .tc := ⟨.hbm, 148, rfl⟩
abbrev main_v88 : Ref sig .tc := ⟨.hbm, 149, rfl⟩
abbrev main_c_28 : Ref sig .tc := ⟨.hbm, 150, rfl⟩
abbrev main_c_29 : Ref sig .tc := ⟨.hbm, 151, rfl⟩
abbrev main_v89 : Ref sig .tc := ⟨.hbm, 152, rfl⟩
abbrev main_c_30 : Ref sig .tc := ⟨.hbm, 153, rfl⟩
abbrev main_c_31 : Ref sig .tc := ⟨.hbm, 154, rfl⟩
abbrev main_v90 : Ref sig .tc := ⟨.hbm, 155, rfl⟩
abbrev main_c_32 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x100000x3_S2x100000x1_0_0_0 : S2x100000x3.Slices ![0, 0, 0] S2x100000x1
  shapeCasts_S2x100000x1_S2x100000 : S2x100000x1.ShapeCasts S2x100000
  bcast_S_S2x100000 : S_.BroadcastsInDim S2x100000 (![] : Fin 0 → Fin S2x100000.rank)
  slices_S2x100000x3_S2x100000x1_0_0_1 : S2x100000x3.Slices ![0, 0, 1] S2x100000x1
  bcast_S2_S2x1_0 : S2.BroadcastsInDim S2x1 (![0] : Fin 1 → Fin S2x1.rank)
  bcast_S_S2x1 : S_.BroadcastsInDim S2x1 (![] : Fin 0 → Fin S2x1.rank)
  bcast_S2x1_S2x100000_0_1 : S2x1.BroadcastsInDim S2x100000 (![0, 1] : Fin 2 → Fin S2x100000.rank)
  shapeCasts_S2x100000_S200000 : S2x100000.ShapeCasts S200000
  shapeCasts_S2x100000x3_S200000x3 : S2x100000x3.ShapeCasts S200000x3
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S_S524288x64 : S_.BroadcastsInDim S524288x64 (![] : Fin 0 → Fin S524288x64.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S524288 : S_.BroadcastsInDim S524288 (![] : Fin 0 → Fin S524288.rank)
  sliceFits_S4x64_S1x64 : S4x64.Slices (fun _ => 0) S1x64
  h_S_ : 0 < S_.numel
  shapeCasts_S1x64_S64 : S1x64.ShapeCasts S64
  bcast_S524288_S524288x1_0 : S524288.BroadcastsInDim S524288x1 (![0] : Fin 1 → Fin S524288x1.rank)
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  natLt_1_32 : 1 < 32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S4096x1_S4096x64 : S4096x1.Broadcasts S4096x64
  broadcasts_S1x64_S4096x64 : S1x64.Broadcasts S4096x64
  shapeCasts_S524288x64_S2x512x512x64 : S524288x64.ShapeCasts S2x512x512x64
  dot_S200000x3_S3x64_S200000x64_1_0_0_1_n_n_wf : DotDims.WF S200000x3 S3x64 S200000x64 [1] [0] [0] [1] [] []
  scatter_S524288x64_S200000x1_S200000x64_1_0_0_1_wf : ScatterDims.WF S524288x64 S200000x1 S200000x64 [1] [0] [0] 1
  scatter_S524288_S200000x1_S200000_n_0_0_1_wf : ScatterDims.WF S524288 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S524288x64.size a
  hwx0_1 : ∀ i : grid0.Coords, EltTy.bits .f32 = 32 ∨ (Rect.block (s := S524288x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S524288x1.size a
  hwx0_2 : ∀ i : grid0.Coords, EltTy.bits .f32 = 32 ∨ (Rect.block (s := S524288x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S524288x1.size a
  hwx0_3 : ∀ i : grid0.Coords, EltTy.bits .f32 = 32 ∨ (Rect.block (s := S524288x1) S4096x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S524288x64.size a
  hwx0_5 : ∀ i : grid0.Coords, EltTy.bits .f32 = 32 ∨ (Rect.block (s := S524288x64) S4096x64.size (cc0_transform_5 i) (hinb0_5 i)).WholeWords (EltTy.packing .f32)

variable [Facts₀]

def dot_S200000x3_S3x64_S200000x64_1_0_0_1_n_n : DotDims S200000x3 S3x64 S200000x64 where
  lhsContracting := [1]
  rhsContracting := [0]
  lhsNonContracting := [0]
  rhsNonContracting := [1]
  lhsBatch := []
  rhsBatch := []
  wf := dot_S200000x3_S3x64_S200000x64_1_0_0_1_n_n_wf
def scatter_S524288x64_S200000x1_S200000x64_1_0_0_1 : ScatterDims S524288x64 S200000x1 S200000x64 where
  updateWindowDims := [1]
  insertedWindowDims := [0]
  scatterDimsToOperandDims := [0]
  indexVectorDim := 1
  wf := scatter_S524288x64_S200000x1_S200000x64_1_0_0_1_wf
def scatter_S524288_S200000x1_S200000_n_0_0_1 : ScatterDims S524288 S200000x1 S200000 where
  updateWindowDims := []
  insertedWindowDims := [0]
  scatterDimsToOperandDims := [0]
  indexVectorDim := 1
  wf := scatter_S524288_S200000x1_S200000_n_0_0_1_wf

abbrev win0_0 : Pipeline.Window sig grid0 :=
  Pipeline.Window.ofSpec (Memref.whole main_v38) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v81) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v95) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v96) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v97) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v98) S4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x100000x3 : Shape := ⟨3, ![2, 100000, 3]⟩
abbrev S3x64 : Shape := ⟨2, ![3, 64]⟩
abbrev S64 : Shape := ⟨1, ![64]⟩
abbrev S4x64 : Shape := ⟨2, ![4, 64]⟩
abbrev S_ : Shape := ⟨0, ![]⟩
abbrev S2x100000x1 : Shape := ⟨3, ![2, 100000, 1]⟩
abbrev S2x100000 : Shape := ⟨2, ![2, 100000]⟩
abbrev S2 : Shape := ⟨1, ![2]⟩
abbrev S2x1 : Shape := ⟨2, ![2, 1]⟩
abbrev S200000 : Shape := ⟨1, ![200000]⟩
abbrev S200000x3 : Shape := ⟨2, ![200000, 3]⟩
abbrev S200000x64 : Shape := ⟨2, ![200000, 64]⟩
abbrev S1x64 : Shape := ⟨2, ![1, 64]⟩
abbrev S524288x64 : Shape := ⟨2, ![524288, 64]⟩
abbrev S200000x1 : Shape := ⟨2, ![200000, 1]⟩
abbrev S524288 : Shape := ⟨1, ![524288]⟩
abbrev S524288x1 : Shape := ⟨2, ![524288, 1]⟩
abbrev S2x4 : Shape := ⟨2, ![2, 4]⟩
abbrev S1 : Shape := ⟨1, ![1]⟩
abbrev S2x64 : Shape := ⟨2, ![2, 64]⟩
abbrev S2x262144x64 : Shape := ⟨3, ![2, 262144, 64]⟩
abbrev S2x512x512x64 : Shape := ⟨4, ![2, 512, 512, 64]⟩

abbrev nBuf : Space → Nat
  | .hbm => 185
  | .vmem => 0
  | .smem => 0
  | _ => 0

abbrev hbmTy0_0 (i : Nat) : BufTy := match i % 128 with
  | 0 => ⟨S2x100000x3, .f32⟩
  | 1 => ⟨S2x100000x3, .f32⟩
  | 2 => ⟨S3x64, .f32⟩
  | 3 => ⟨S64, .f32⟩
  | 4 => ⟨S4x64, .f32⟩
  | 5 => ⟨S64, .f32⟩
  | 6 => ⟨S_, .i32⟩
  | 7 => ⟨S2x100000x1, .f32⟩
  | 8 => ⟨S2x100000, .f32⟩
  | 9 => ⟨S_, .f32⟩
  | 10 => ⟨S2x100000, .f32⟩
  | 11 => ⟨S2x100000, .f32⟩
  | 12 => ⟨S_, .f32⟩
  | 13 => ⟨S2x100000, .f32⟩
  | 14 => ⟨S2x100000, .f32⟩
  | 15 => ⟨S2x100000, .f32⟩
  | 16 => ⟨S_, .i32⟩
  | 17 => ⟨S_, .i32⟩
  | 18 => ⟨S_, .f32⟩
  | 19 => ⟨S2x100000, .f32⟩
  | 20 => ⟨S2x100000, .f32⟩
  | 21 => ⟨S_, .f32⟩
  | 22 => ⟨S2x100000, .f32⟩
  | 23 => ⟨S2x100000, .f32⟩
  | 24 => ⟨S2x100000, .i32⟩
  | 25 => ⟨S2x100000x1, .f32⟩
  | 26 => ⟨S2x100000, .f32⟩
  | 27 => ⟨S_, .f32⟩
  | 28 => ⟨S2x100000, .f32⟩
  | 29 => ⟨S2x100000, .f32⟩
  | 30 => ⟨S_, .f32⟩
  | 31 => ⟨S2x100000, .f32⟩
  | 32 => ⟨S2x100000, .f32⟩
  | 33 => ⟨S2x100000, .f32⟩
  | 34 => ⟨S_, .i32⟩
  | 35 => ⟨S_, .i32⟩
  | 36 => ⟨S_, .f32⟩
  | 37 => ⟨S2x100000, .f32⟩
  | 38 => ⟨S2x100000, .f32⟩
  | 39 => ⟨S_, .f32⟩
  | 40 => ⟨S2x100000, .f32⟩
  | 41 => ⟨S2x100000, .f32⟩
  | 42 => ⟨S2x100000, .i32⟩
  | 43 => ⟨S2, .i32⟩
  | 44 => ⟨S2x1, .i32⟩
  | 45 => ⟨S_, .i32⟩
  | 46 => ⟨S2x1, .i32⟩
  | 47 => ⟨S2x1, .i32⟩
  | 48 => ⟨S_, .i32⟩
  | 49 => ⟨S2x1, .i32⟩
  | 50 => ⟨S2x1, .i32⟩
  | 51 => ⟨S_, .i32⟩
  | 52 => ⟨S2x100000, .i32⟩
  | 53 => ⟨S2x100000, .i32⟩
  | 54 => ⟨S2x100000, .i32⟩
  | 55 => ⟨S2x100000, .i32⟩
  | 56 => ⟨S2x100000, .i32⟩
  | 57 => ⟨S200000, .i32⟩
  | 58 => ⟨S200000x3, .f32⟩
  | 59 => ⟨S200000x64, .f32⟩
  | 60 => ⟨S1x64, .f32⟩
  | 61 => ⟨S200000x64, .f32⟩
  | 62 => ⟨S200000x64, .f32⟩
  | 63 => ⟨S_, .f32⟩
  | 64 => ⟨S200000x64, .f32⟩
  | 65 => ⟨S200000x64, .f32⟩
  | 66 => ⟨S_, .f32⟩
  | 67 => ⟨S524288x64, .f32⟩
  | 68 => ⟨S200000x1, .i32⟩
  | 69 => ⟨S524288x64, .f32⟩
  | 70 => ⟨S_, .f32⟩
  | 71 => ⟨S200000, .f32⟩
  | 72 => ⟨S_, .f32⟩
  | 73 => ⟨S524288, .f32⟩
  | 74 => ⟨S200000x1, .i32⟩
  | 75 => ⟨S524288, .f32⟩
  | 76 => ⟨S_, .f32⟩
  | 77 => ⟨S524288, .f32⟩
  | 78 => ⟨S524288, .f32⟩
  | 79 => ⟨S524288x1, .f32⟩
  | 80 => ⟨S524288x64, .f32⟩
  | 81 => ⟨S524288x64, .f32⟩
  | 82 => ⟨S2x100000x1, .f32⟩
  | 83 => ⟨S2x100000, .f32⟩
  | 84 => ⟨S_, .f32⟩
  | 85 => ⟨S2x100000, .f32⟩
  | 86 => ⟨S2x100000, .f32⟩
  | 87 => ⟨S_, .f32⟩
  | 88 => ⟨S2x100000, .f32⟩
  | 89 => ⟨S2x100000, .f32⟩
  | 90 => ⟨S2x100000, .f32⟩
  | 91 => ⟨S_, .i32⟩
  | 92 => ⟨S_, .i32⟩
  | 93 => ⟨S_, .f32⟩
  | 94 => ⟨S2x100000, .f32⟩
  | 95 => ⟨S2x100000, .f32⟩
  | 96 => ⟨S_, .f32⟩
  | 97 => ⟨S2x100000, .f32⟩
  | 98 => ⟨S2x100000, .f32⟩
  | 99 => ⟨S2x100000, .i32⟩
  | 100 => ⟨S2x100000x1, .f32⟩
  | 101 => ⟨S2x100000, .f32⟩
  | 102 => ⟨S_, .f32⟩
  | 103 => ⟨S2x100000, .f32⟩
  | 104 => ⟨S2x100000, .f32⟩
  | 105 => ⟨S_, .f32⟩
  | 106 => ⟨S2x100000, .f32⟩
  | 107 => ⟨S2x100000, .f32⟩
  | 108 => ⟨S2x100000, .f32⟩
  | 109 => ⟨S_, .i32⟩
  | 110 => ⟨S_, .i32⟩
  | 111 => ⟨S_, .f32⟩
  | 112 => ⟨S2x100000, .f32⟩
  | 113 => ⟨S2x100000, .f32⟩
  | 114 => ⟨S_, .f32⟩
  | 115 => ⟨S2x100000, .f32⟩
  | 116 => ⟨S2x100000, .f32⟩
  | 117 => ⟨S2x100000, .i32⟩
  | 118 => ⟨S2, .i32⟩
  | 119 => ⟨S2x1, .i32⟩
  | 120 => ⟨S_, .i32⟩
  | 121 => ⟨S2x1, .i32⟩
  | 122 => ⟨S2x1, .i32⟩
  | 123 => ⟨S_, .i32⟩
  | 124 => ⟨S2x1, .i32⟩
  | 125 => ⟨S2x1, .i32⟩
  | 126 => ⟨S_, .i32⟩
  | 127 => ⟨S2x100000, .i32⟩
  | _ => ⟨S2x100000x3, .f32⟩

abbrev hbmTy0_1 (i : Nat) : BufTy := match i % 128 with
  | 0 => ⟨S2x100000, .i32⟩
  | 1 => ⟨S2x100000, .i32⟩
  | 2 => ⟨S2x100000, .i32⟩
  | 3 => ⟨S2x100000, .i32⟩
  | 4 => ⟨S200000, .i32⟩
  | 5 => ⟨S200000x3, .f32⟩
  | 6 => ⟨S200000x64, .f32⟩
  | 7 => ⟨S1x64, .f32⟩
  | 8 => ⟨S200000x64, .f32⟩
  | 9 => ⟨S200000x64, .f32⟩
  | 10 => ⟨S_, .f32⟩
  | 11 => ⟨S200000x64, .f32⟩
  | 12 => ⟨S200000x64, .f32⟩
  | 13 => ⟨S_, .f32⟩
  | 14 => ⟨S524288x64, .f32⟩
  | 15 => ⟨S200000x1, .i32⟩
  | 16 => ⟨S524288x64, .f32⟩
  | 17 => ⟨S_, .f32⟩
  | 18 => ⟨S200000, .f32⟩
  | 19 => ⟨S_, .f32⟩
  | 20 => ⟨S524288, .f32⟩
  | 21 => ⟨S200000x1, .i32⟩
  | 22 => ⟨S524288, .f32⟩
  | 23 => ⟨S_, .f32⟩
  | 24 => ⟨S524288, .f32⟩
  | 25 => ⟨S524288, .f32⟩
  | 26 => ⟨S524288x1, .f32⟩
  | 27 => ⟨S524288x64, .f32⟩
  | 28 => ⟨S524288x64, .f32⟩
  | 29 => ⟨S524288x64, .f32⟩
  | 30 => ⟨S524288, .f32⟩
  | 31 => ⟨S_, .f32⟩
  | 32 => ⟨S524288, .f32⟩
  | 33 => ⟨S524288, .i1⟩
  | 34 => ⟨S524288, .f32⟩
  | 35 => ⟨S_, .f32⟩
  | 36 => ⟨S2x4, .f32⟩
  | 37 => ⟨S_, .i32⟩
  | 38 => ⟨S_, .i1⟩
  | 39 => ⟨S_, .i32⟩
  | 40 => ⟨S_, .i32⟩
  | 41 => ⟨S_, .i32⟩
  | 42 => ⟨S1, .i32⟩
  | 43 => ⟨S_, .f32⟩
  | 44 => ⟨S2, .f32⟩
  | 45 => ⟨S2x4, .f32⟩
  | 46 => ⟨S2x64, .f32⟩
  | 47 => ⟨S1x64, .f32⟩
  | 48 => ⟨S2x64, .f32⟩
  | 49 => ⟨S2x64, .f32⟩
  | 50 => ⟨S2x262144x64, .f32⟩
  | 51 => ⟨S524288x64, .f32⟩
  | 52 => ⟨S524288x64, .f32⟩
  | 53 => ⟨S524288x1, .f32⟩
  | 54 => ⟨S524288x64, .f32⟩
  | 55 => ⟨S524288x64, .f32⟩
  | 56 => ⟨S2x512x512x64, .f32⟩
  | _ => ⟨S2x100000x3, .f32⟩

abbrev hbmTy (i : Nat) : BufTy := match i / 128 with
  | 0 => hbmTy0_0 i
  | 1 => hbmTy0_1 i
  | _ => ⟨S2x100000x3, .f32⟩

abbrev bufTy : (tb : Table) → Fin (tcTables nBuf tb) → BufTy
  | .hbm, ⟨i, _⟩ => hbmTy i
  | _, _ => ⟨S2x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_c_5 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_v22 : Ref sig .tc := ⟨.hbm, 49, rfl⟩
abbrev main_v23 : Ref sig .tc := ⟨.hbm, 50, rfl⟩
abbrev main_c_8 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call2_cst : Ref sig .tc := ⟨.hbm, 63, rfl⟩
abbrev main_call2_v0 : Ref sig .tc := ⟨.hbm, 64, rfl⟩
abbrev main_v35 : Ref sig .tc := ⟨.hbm, 65, rfl⟩
abbrev main_cst_9 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_10 : Ref sig .tc := ⟨.hbm, 70, rfl⟩
abbrev main_v39 : Ref sig .tc := ⟨.hbm, 71, rfl⟩
abbrev main_cst_11 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_12 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_13 : Ref sig .tc := ⟨.hbm, 84, rfl⟩
abbrev main_v50 : Ref sig .tc := ⟨.hbm, 85, rfl⟩
abbrev main_v51 : Ref sig .tc := ⟨.hbm, 86, rfl⟩
abbrev main_cst_14 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_15 : Ref sig .tc := ⟨.hbm, 91, rfl⟩
abbrev main_c_16 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_17 : Ref sig .tc := ⟨.hbm, 102, rfl⟩
abbrev main_v59 : Ref sig .tc := ⟨.hbm, 103, rfl⟩
abbrev main_v60 : Ref sig .tc := ⟨.hbm, 104, rfl⟩
abbrev main_cst_18 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_c_19 : Ref sig .tc := ⟨.hbm, 109, rfl⟩
abbrev main_c_20 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c_21 : Ref sig .tc := ⟨.hbm, 120, rfl⟩
abbrev main_v68 : Ref sig .tc := ⟨.hbm, 121, rfl⟩
abbrev main_v69 : Ref sig .tc := ⟨.hbm, 122, rfl⟩
abbrev main_c_22 : Ref sig .tc := ⟨.hbm, 123, rfl⟩
abbrev main_v70 : Ref sig .tc := ⟨.hbm, 124, rfl⟩
abbrev main_v71 : Ref sig .tc := ⟨.hbm, 125, rfl⟩
abbrev main_c_23 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_call5_cst : Ref sig .tc := ⟨.hbm, 138, rfl⟩
abbrev main_call5_v0 : Ref sig .tc := ⟨.hbm, 139, rfl⟩
abbrev main_v83 : Ref sig .tc := ⟨.hbm, 140, rfl⟩
abbrev main_cst_24 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_25 : Ref sig .tc := ⟨.hbm, 145, rfl⟩
abbrev main_v87 : Ref sig .tc := ⟨.hbm, 146, rfl⟩
abbrev main_cst_26 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_cst_27 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_28 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_29 : Ref sig .tc := ⟨.hbm, 163, rfl⟩
abbrev main_v101 : Ref sig .tc := ⟨.hbm, 164, rfl⟩
abbrev main_c_30 : Ref sig .tc := ⟨.hbm, 165, rfl⟩
abbrev main_v102 : Ref sig .tc := ⟨.hbm, 166, rfl⟩
abbrev main_c_31 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_cst_32 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩

abbrev nD : Nat := 1
abbrev τ : Topo := Topo.v7x

variable {F : FTy → Type} [FloatOps F]

class Facts₀ : Prop where
  slices_S2x100000x3_S2x100000x1_0_0_0 : S2x100000x3.Slices ![0, 0, 0] S2x100000x1
  shapeCasts_S2x100000x1_S2x100000 : S2x100000x1.ShapeCasts S2x100000
  bcast_S_S2x100000 : S_.BroadcastsInDim S2x100000 (![] : Fin 0 → Fin S2x100000.rank)
  slices_S2x100000x3_S2x100000x1_0_0_1 : S2x100000x3.Slices ![0, 0, 1] S2x100000x1
  bcast_S2_S2x1_0 : S2.BroadcastsInDim S2x1 (![0] : Fin 1 → Fin S2x1.rank)
  bcast_S_S2x1 : S_.BroadcastsInDim S2x1 (![] : Fin 0 → Fin S2x1.rank)
  bcast_S2x1_S2x100000_0_1 : S2x1.BroadcastsInDim S2x100000 (![0, 1] : Fin 2 → Fin S2x100000.rank)
  shapeCasts_S2x100000_S200000 : S2x100000.ShapeCasts S200000
  shapeCasts_S2x100000x3_S200000x3 : S2x100000x3.ShapeCasts S200000x3
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S_S524288x64 : S_.BroadcastsInDim S524288x64 (![] : Fin 0 → Fin S524288x64.rank)
  bcast_S200000_S200000x1_0 : S200000.BroadcastsInDim S200000x1 (![0] : Fin 1 → Fin S200000x1.rank)
  bcast_S_S200000 : S_.BroadcastsInDim S200000 (![] : Fin 0 → Fin S200000.rank)
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  bcast_S_S2x4 : S_.BroadcastsInDim S2x4 (![] : Fin 0 → Fin S2x4.rank)
  bcast_S_S1 : S_.BroadcastsInDim S1 (![] : Fin 0 → Fin S1.rank)
  bcast_S_S2 : S_.BroadcastsInDim S2 (![] : Fin 0 → Fin S2.rank)
  bcast_S1x64_S2x64_0_1 : S1x64.BroadcastsInDim S2x64 (![0, 1] : Fin 2 → Fin S2x64.rank)
  bcast_S2x64_S2x262144x64_0_2 : S2x64.BroadcastsInDim S2x262144x64 (![0, 2] : Fin 2 → Fin S2x262144x64.rank)
  shapeCasts_S2x262144x64_S524288x64 : S2x262144x64.ShapeCasts S524288x64
  shapeCasts_S524288x64_S2x512x512x64 : S524288x64.ShapeCasts S2x512x512x64
  dot_S200000x3_S3x64_S200000x64_1_0_0_1_n_n_wf : DotDims.WF S200000x3 S3x64 S200000x64 [1] [0] [0] [1] [] []
  scatter_S524288x64_S200000x1_S200000x64_1_0_0_1_wf : ScatterDims.WF S524288x64 S200000x1 S200000x64 [1] [0] [0] 1
  scatter_S524288_S200000x1_S200000_n_0_0_1_wf : ScatterDims.WF S524288 S200000x1 S200000 [] [0] [0] 1
  scatter_S2x4_S1_S2_0_1_1_0_wf : ScatterDims.WF S2x4 S1 S2 [0] [1] [1] 0
  dot_S2x4_S4x64_S2x64_1_0_0_1_n_n_wf : DotDims.WF S2x4 S4x64 S2x64 [1] [0] [0] [1] [] []

variable [Facts₀]

def dot_S200000x3_S3x64_S200000x64_1_0_0_1_n_n : DotDims S200000x3 S3x64 S200000x64 where
  lhsContracting := [1]
  rhsContracting := [0]
  lhsNonContracting := [0]
  rhsNonContracting := [1]
  lhsBatch := []
  rhsBatch := []
  wf := dot_S200000x3_S3x64_S200000x64_1_0_0_1_n_n_wf
def scatter_S524288x64_S200000x1_S200000x64_1_0_0_1 : ScatterDims S524288x64 S200000x1 S200000x64 where
  updateWindowDims := [1]
  insertedWindowDims := [0]
  scatterDimsToOperandDims := [0]
  indexVectorDim := 1
  wf := scatter_S524288x64_S200000x1_S200000x64_1_0_0_1_wf
def scatter_S524288_S200000x1_S200000_n_0_0_1 : ScatterDims S524288 S200000x1 S200000 where
  updateWindowDims := []
  insertedWindowDims := [0]
  scatterDimsToOperandDims := [0]
  indexVectorDim := 1
  wf := scatter_S524288_S200000x1_S200000_n_0_0_1_wf
def scatter_S2x4_S1_S2_0_1_1_0 : ScatterDims S2x4 S1 S2 where
  updateWindowDims := [0]
  insertedWindowDims := [1]
  scatterDimsToOperandDims := [1]
  indexVectorDim := 0
  wf := scatter_S2x4_S1_S2_0_1_1_0_wf
def dot_S2x4_S4x64_S2x64_1_0_0_1_n_n : DotDims S2x4 S4x64 S2x64 where
  lhsContracting := [1]
  rhsContracting := [0]
  lhsNonContracting := [0]
  rhsNonContracting := [1]
  lhsBatch := []
  rhsBatch := []
  wf := dot_S2x4_S4x64_S2x64_1_0_0_1_n_n_wf

class Facts : Prop extends Facts₀ where

variable [Facts]
-- ==== Proof.FrameK.lean ====
import proofs.«140665_g16836271800623_cont_week2b_1426_1_alg».proof.Proof.Gen.Kernel.Launch
import proofs.«140665_g16836271800623_cont_week2b_1426_1_alg».proof.Proof.Gen.Kernel.Skeleton
import proofs.«140665_g16836271800623_cont_week2b_1426_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- Core c's buffer contents when the region is entered: the launch contents after the host operations before it. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations, the region, the last host operation: it reduces to the region continued by that operation,
    the buffers then at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- The operation after the region touches only the region's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes none of the region's arrays (it writes the program's result buffer, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
set_option maxHeartbeats 4000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
set_option maxHeartbeats 4000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
set_option maxHeartbeats 4000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data whose array is V's and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data whose array is V's and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data whose array is V's and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data whose array is V's and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data whose array is V's and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's run -/

/-- After the whole program argument 0 holds its launch contents: the last host operation does not write it, it is none
    of the region's arrays, and the host operations before the region do not write it. -/
theorem tail_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg0 (by decide)]
  exact V_main_arg0 m c
/-- After the whole program argument 1 holds its launch contents: the last host operation does not write it, it is none
    of the region's arrays, and the host operations before the region do not write it. -/
theorem tail_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg1 (by decide)]
  exact V_main_arg1 m c
/-- After the whole program argument 2 holds its launch contents: the last host operation does not write it, it is none
    of the region's arrays, and the host operations before the region do not write it. -/
theorem tail_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg2 (by decide)]
  exact V_main_arg2 m c
/-- After the whole program argument 3 holds its launch contents: the last host operation does not write it, it is none
    of the region's arrays, and the host operations before the region do not write it. -/
theorem tail_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg3 (by decide)]
  exact V_main_arg3 m c
/-- After the whole program argument 4 holds its launch contents: the last host operation does not write it, it is none
    of the region's arrays, and the host operations before the region do not write it. -/
theorem tail_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg4 (by decide)]
  exact V_main_arg4 m c
/-- After the whole program argument 5 holds its launch contents: the last host operation does not write it, it is none
    of the region's arrays, and the host operations before the region do not write it. -/
theorem tail_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg5 (by decide)]
  exact V_main_arg5 m c
/-- After the whole program argument 6 holds its launch contents: the last host operation does not write it, it is none
    of the region's arrays, and the host operations before the region do not write it. -/
theorem tail_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg6 (by decide)]
  exact V_main_arg6 m c

/-- The frame from the region's run: a run to the library's post of the frame run, read at the seven arguments (each
    among the buffers that bypass the region), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of _ rfl (by decide))).trans (tail_arg0 m dats c),
      ((h c).2 main_arg1 (Pipeline.mem_restRefs_of _ rfl (by decide))).trans (tail_arg1 m dats c),
      ((h c).2 main_arg2 (Pipeline.mem_restRefs_of _ rfl (by decide))).trans (tail_arg2 m dats c),
      ((h c).2 main_arg3 (Pipeline.mem_restRefs_of _ rfl (by decide))).trans (tail_arg3 m dats c),
      ((h c).2 main_arg4 (Pipeline.mem_restRefs_of _ rfl (by decide))).trans (tail_arg4 m dats c),
      ((h c).2 main_arg5 (Pipeline.mem_restRefs_of _ rfl (by decide))).trans (tail_arg5 m dats c),
      ((h c).2 main_arg6 (Pipeline.mem_restRefs_of _ rfl (by decide))).trans (tail_arg6 m dats c)⟩) h

/-! ## What the body leaves in the output window's buffer -/

/-- The whole block of a [4096, 64] buffer, of a [4096, 1] buffer and of a [1, 64] buffer: what the body loads and stores through. -/
abbrev rA : Rect S4096x64 := Rect.unit (s := S4096x64) ![0, 0] S4096x64.size inb_S4096x64_S4096x64_0_0
abbrev rC : Rect S4096x1 := Rect.unit (s := S4096x1) ![0, 0] S4096x1.size inb_S4096x1_S4096x1_0_0
abbrev rT : Rect S1x64 := Rect.unit (s := S1x64) ![0, 0] S1x64.size inb_S1x64_S1x64_0_0

/-- The output window's staging buffer after the body, from the five input windows' blocks (x0, x1 the two sums blocks,
    x2, x3 the two count columns, x4 the time row): its one store, of the body's value over the loaded blocks. -/
def out5 (x0 x1 : Vec F S4096x64 .f32) (x2 x3 : Vec F S4096x1 .f32) (x4 : Vec F S1x64 .f32) : Vec F S4096x64 .f32 :=
  View.canon [⟨rA, k0_pay1 (View.ld x2 rC) (View.ld x3 rC) (View.ld x4 rT) (View.ld x1 rA) (View.ld x0 rA)⟩]

/-- That one store covers the buffer. -/
theorem cover5 (p0 : Vec F S4096x64 .f32) (y : S4096x64.Idx) :
    ∃ pc ∈ ([⟨rA, p0⟩] : List (View.Piece (Elt F) S4096x64 .f32)), y ∈ pc.1.set :=
  View.cover_of_tiled [⟨rA, p0⟩] S4096x64.size (by rfl) y

/-! ## The body's triple -/

set_option maxHeartbeats 4000000 in
/-- The body on whole staging memrefs, the inputs' at contents x0 … x4 and the output's at anything, runs to a state
    holding the inputs' as they were and the output's at out5 of them. -/
theorem sound_kernel (c : Dev nD) (E : Set ℕ) (i : grid0.Coords)
    (arg1 : Memref sig .tc .vmem S4096x64 .f32) (harg1 : arg1.IsWhole) (arg2 : Memref sig .tc .vmem S4096x64 .f32) (harg2 : arg2.IsWhole)
    (arg3 : Memref sig .tc .vmem S4096x1 .f32) (harg3 : arg3.IsWhole) (arg4 : Memref sig .tc .vmem S4096x1 .f32) (harg4 : arg4.IsWhole)
    (arg5 : Memref sig .tc .vmem S1x64 .f32) (harg5 : arg5.IsWhole) (arg6 : Memref sig .tc .vmem S4096x64 .f32) (harg6 : arg6.IsWhole)
    (x0 x1 : Vec F S4096x64 .f32) (x2 x3 : Vec F S4096x1 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc0__finalize_body i arg1 harg1 arg2 harg2 arg3 harg3 arg4 harg4 arg5 harg5 arg6 harg6) K := by
  simp only [cc0__finalize_body_eq_skeleton]; unfold cc0__finalize_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the pipeline on core c: the arrays as the region finds them; after the body at point t each
    input's buffer at its block and the output's at out5 of the five input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
/-- The body at any point: the inputs' memrefs hold their blocks, so the triple applies; the invariant and the core's
    debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the proof data compute and every other unscoped buffer as the last host operation
    leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the statement of the frame claim at any F. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Frame

end
-- ==== Proof.FrameKI.lean ====
/-
  The frame of the program: it runs to the end, faults nowhere and leaves its seven argument arrays as launched.

  The program is host operations, one pipelined region of 128 grid points, and one more host operation (the reshape of the
  region's result to [2, 512, 512, 64]). Before the region the host computes, for each of the two point clouds, the
  per-voxel feature sums (a [524288, 64] array) and the per-voxel point counts (a [524288] array, passed as a column
  [524288, 1]), and the time feature (a row [1, 64]: the row of W_time at the normalised time index, plus b_time). The
  region reads these five arrays through blocks of 4096 rows (the time row whole, fetched once) and writes a
  [524288, 64] array block by block; no argument array is among the arrays the region stages, and no host operation
  writes an argument, so each argument ends as it began.

  At grid point t the body loads the five input blocks, computes one value for the whole output block from them
  (pointwise arithmetic and broadcasts only) and stores it over the whole output block. What the output block holds after
  the body is therefore a function of the five input blocks alone: out5 below. (The body also loads the output block
  before overwriting it and never uses what it loaded.)

  Everything here is stated for an arbitrary float instance F.
-/
import proofs.«140665_g16836271800623_cont_week2b_1426_1_alg».proof.Proof.Gen.KernelIdeal.Launch
import proofs.«140665_g16836271800623_cont_week2b_1426_1_alg».proof.Proof.Gen.KernelIdeal.Skeleton
import proofs.«140665_g16836271800623_cont_week2b_1426_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- Core c's buffer contents when the region is entered: the launch contents after the host operations before it. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations, the region, the last host operation: it reduces to the region continued by that operation,
    the buffers then at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- The operation after the region touches only the region's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes none of the region's arrays (it writes the program's result buffer, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
set_option maxHeartbeats 4000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
set_option maxHeartbeats 4000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))
set_option maxHeartbeats 4000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data whose array is V's and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data whose array is V's and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data whose array is V's and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data whose array is V's and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data whose array is V's and whose body leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's run -/

/-- After the whole program argument 0 holds its launch contents: the last host operation does not write it, it is none
    of the region's arrays, and the host operations before the region do not write it. -/
theorem tail_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg0 (by decide)]
  exact V_main_arg0 m c
/-- After the whole program argument 1 holds its launch contents: the last host operation does not write it, it is none
    of the region's arrays, and the host operations before the region do not write it. -/
theorem tail_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg1 (by decide)]
  exact V_main_arg1 m c
/-- After the whole program argument 2 holds its launch contents: the last host operation does not write it, it is none
    of the region's arrays, and the host operations before the region do not write it. -/
theorem tail_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg2 (by decide)]
  exact V_main_arg2 m c
/-- After the whole program argument 3 holds its launch contents: the last host operation does not write it, it is none
    of the region's arrays, and the host operations before the region do not write it. -/
theorem tail_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg3 (by decide)]
  exact V_main_arg3 m c
/-- After the whole program argument 4 holds its launch contents: the last host operation does not write it, it is none
    of the region's arrays, and the host operations before the region do not write it. -/
theorem tail_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg4 (by decide)]
  exact V_main_arg4 m c
/-- After the whole program argument 5 holds its launch contents: the last host operation does not write it, it is none
    of the region's arrays, and the host operations before the region do not write it. -/
theorem tail_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg5 (by decide)]
  exact V_main_arg5 m c
/-- After the whole program argument 6 holds its launch contents: the last host operation does not write it, it is none
    of the region's arrays, and the host operations before the region do not write it. -/
theorem tail_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
    simp only [hostOps1, List.flatten_cons, List.flatten_nil, List.append_nil, List.Forall, StableHlo.reshape_writes, Finset.mem_singleton]
    exact StableHlo.devRef_ne_of_ne (by decide)))]
  rw [Pipeline.withArrays_of_ne _ c (V0 m c) _ main_arg6 (by decide)]
  exact V_main_arg6 m c

/-- The frame from the region's run: a run to the library's post of the frame run, read at the seven arguments (each
    among the buffers that bypass the region), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of _ rfl (by decide))).trans (tail_arg0 m dats c),
      ((h c).2 main_arg1 (Pipeline.mem_restRefs_of _ rfl (by decide))).trans (tail_arg1 m dats c),
      ((h c).2 main_arg2 (Pipeline.mem_restRefs_of _ rfl (by decide))).trans (tail_arg2 m dats c),
      ((h c).2 main_arg3 (Pipeline.mem_restRefs_of _ rfl (by decide))).trans (tail_arg3 m dats c),
      ((h c).2 main_arg4 (Pipeline.mem_restRefs_of _ rfl (by decide))).trans (tail_arg4 m dats c),
      ((h c).2 main_arg5 (Pipeline.mem_restRefs_of _ rfl (by decide))).trans (tail_arg5 m dats c),
      ((h c).2 main_arg6 (Pipeline.mem_restRefs_of _ rfl (by decide))).trans (tail_arg6 m dats c)⟩) h

/-! ## What the body leaves in the output window's buffer -/

/-- The whole block of a [4096, 64] buffer, of a [4096, 1] buffer and of a [1, 64] buffer: what the body loads and stores through. -/
abbrev rA : Rect S4096x64 := Rect.unit (s := S4096x64) ![0, 0] S4096x64.size inb_S4096x64_S4096x64_0_0
abbrev rC : Rect S4096x1 := Rect.unit (s := S4096x1) ![0, 0] S4096x1.size inb_S4096x1_S4096x1_0_0
abbrev rT : Rect S1x64 := Rect.unit (s := S1x64) ![0, 0] S1x64.size inb_S1x64_S1x64_0_0

/-- The output window's staging buffer after the body, from the five input windows' blocks (x0, x1 the two sums blocks,
    x2, x3 the two count columns, x4 the time row): its one store, of the body's value over the loaded blocks. -/
def out5 (x0 x1 : Vec F S4096x64 .f32) (x2 x3 : Vec F S4096x1 .f32) (x4 : Vec F S1x64 .f32) : Vec F S4096x64 .f32 :=
  View.canon [⟨rA, k0_pay1 (View.ld x2 rC) (View.ld x3 rC) (View.ld x4 rT) (View.ld x1 rA) (View.ld x0 rA)⟩]

/-- That one store covers the buffer. -/
theorem cover5 (p0 : Vec F S4096x64 .f32) (y : S4096x64.Idx) :
    ∃ pc ∈ ([⟨rA, p0⟩] : List (View.Piece (Elt F) S4096x64 .f32)), y ∈ pc.1.set :=
  View.cover_of_tiled [⟨rA, p0⟩] S4096x64.size (by rfl) y

/-! ## The body's triple -/

set_option maxHeartbeats 4000000 in
/-- The body on whole staging memrefs, the inputs' at contents x0 … x4 and the output's at anything, runs to a state
    holding the inputs' as they were and the output's at out5 of them. -/
theorem sound_kernel (c : Dev nD) (E : Set ℕ) (i : grid0.Coords)
    (arg1 : Memref sig .tc .vmem S4096x64 .f32) (harg1 : arg1.IsWhole) (arg2 : Memref sig .tc .vmem S4096x64 .f32) (harg2 : arg2.IsWhole)
    (arg3 : Memref sig .tc .vmem S4096x1 .f32) (harg3 : arg3.IsWhole) (arg4 : Memref sig .tc .vmem S4096x1 .f32) (harg4 : arg4.IsWhole)
    (arg5 : Memref sig .tc .vmem S1x64 .f32) (harg5 : arg5.IsWhole) (arg6 : Memref sig .tc .vmem S4096x64 .f32) (harg6 : arg6.IsWhole)
    (x0 x1 : Vec F S4096x64 .f32) (x2 x3 : Vec F S4096x1 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc0__finalize_body i arg1 harg1 arg2 harg2 arg3 harg3 arg4 harg4 arg5 harg5 arg6 harg6) K := by
  simp only [cc0__finalize_body_eq_skeleton]; unfold cc0__finalize_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the pipeline on core c: the arrays as the region finds them; after the body at point t each
    input's buffer at its block and the output's at out5 of the five input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
/-- The body at any point: the inputs' memrefs hold their blocks, so the triple applies; the invariant and the core's
    debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the proof data compute and every other unscoped buffer as the last host operation
    leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the statement of the frame claim at any F. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Frame

end
-- ==== Proof.Spec.lean ====
/-
  The specification. For one voxel row r and one feature column f the result is a function of five extended reals:
  the two feature sums s0, s1 (first and second point cloud) at (r, f), the two point counts c0, c1 at r, and the time
  feature t at f.

  The kernel computes   ((s1 · (1 / max c1 1)) − (s0 · (1 / max c0 1)) + t) · occ (c0 + c1),
  the reference         ((s1 / max c1 1) − (s0 / max c0 1) + t) · occ (c0 + c1),
  where occ x is 1 for x > 0 and 0 otherwise. On the extended reals a quotient by y ≠ 0 is the product with y⁻¹, and
  max c 1 is at least 1 whatever c is (an infinity included), so s · (1 / max c 1) = s · (1 · (max c 1)⁻¹) = s / max c 1
  with no condition on s or c: the two are one function.
-/
import Idealize.ShloMosaic.PureOps.Ideal
import Idealize.ShloMosaic.Lib.ValueIdx

noncomputable section

namespace Cert.Spec

open Idealize.ShloMosaic Idealize.ShloMosaic.ValueIdx

/-- The f32 words of 1.0 and of 0.0, as the extended reals they denote. -/
def one : EReal := Ideal.ofBits .f32 0x3F800000#32
def zero : EReal := Ideal.ofBits .f32 0x00000000#32

theorem one_eq : one = 1 := by
  unfold one; simp [Ideal.ofBits, Ideal.ieee, -EReal.coe_mul]; norm_num
theorem zero_eq : zero = 0 := by
  unfold zero; simp [Ideal.ofBits, Ideal.ieee]

/-- Occupancy: 1 where x is positive, 0 elsewhere (the compare's bit read as a number). -/
def occ (x : EReal) : EReal := (((Ideal.cmp .ogt x zero).toNat : ℝ) : EReal)

/-- max c 1 is never zero. -/
theorem max_one_ne_zero (c : EReal) : max c one ≠ 0 := by
  rw [one_eq]
  have h : (0 : EReal) < max c 1 := lt_of_lt_of_le zero_lt_one (le_max_right c 1)
  exact ne_of_gt h

/-- A sum times the reciprocal of max c 1 is the sum divided by max c 1. -/
theorem mul_recip_eq_div (s c : EReal) : s * Ideal.div one (max c one) = Ideal.div s (max c one) := by
  have h := max_one_ne_zero c
  unfold Ideal.div
  rw [if_neg h, if_neg h, one_eq, one_mul]

/-- The kernel's value at one element. -/
def kpt (s0 s1 c0 c1 t : EReal) : EReal :=
  ((s1 * Ideal.div one (max c1 one)) - (s0 * Ideal.div one (max c0 one)) + t) * occ (c0 + c1)

/-- The reference's value at one element. -/
def rpt (s0 s1 c0 c1 t : EReal) : EReal :=
  ((Ideal.div s1 (max c1 one)) - (Ideal.div s0 (max c0 one)) + t) * occ (c0 + c1)

theorem kpt_eq_rpt (s0 s1 c0 c1 t : EReal) : kpt s0 s1 c0 c1 t = rpt s0 s1 c0 c1 t := by
  unfold kpt rpt
  rw [mul_recip_eq_div, mul_recip_eq_div]

/-! ## The whole arrays -/

abbrev SR64 : Shape := ⟨2, ![524288, 64]⟩
abbrev SR1 : Shape := ⟨2, ![524288, 1]⟩
abbrev S1F : Shape := ⟨2, ![1, 64]⟩
abbrev SOut : Shape := ⟨4, ![2, 512, 512, 64]⟩

/-- The row of an element of a [524288, 64] array, as an index of a [524288, 1] column. -/
abbrev colOf (i : SR64.Idx) : SR1.Idx := ix2 (n0 := 524288) (n1 := 1) ⟨(i 0).val, (i 0).isLt⟩ ⟨0, Nat.one_pos⟩
/-- Its column, as an index of a [1, 64] row. -/
abbrev rowOf (i : SR64.Idx) : S1F.Idx := ix2 (n0 := 1) (n1 := 64) ⟨0, Nat.one_pos⟩ ⟨(i 1).val, (i 1).isLt⟩

/-- What the kernel's region writes, as one function of the five arrays it reads: the sums s0, s1, the count columns
    c0, c1 and the time row t. -/
def KArr (s0 s1 : SR64.Idx → EReal) (c0 c1 : SR1.Idx → EReal) (t : S1F.Idx → EReal) : SR64.Idx → EReal :=
  fun i => kpt (s0 i) (s1 i) (c0 (colOf i)) (c1 (colOf i)) (t (rowOf i))

end Cert.Spec

end
-- ==== Proof.KValue.lean ====
/-
  The value of the kernel program: what its one pipelined region leaves in the array it writes, and with it the
  program's result.

  At grid point t the body stores, over the whole [4096, 64] output block, one value computed pointwise from the five
  input blocks: at row p and column q it is
      ((s1 · (1 / max c1 1)) − (s0 · (1 / max c0 1)) + time) · occ (c0 + c1)
  of the two sums blocks at (p, q), the two count columns at row p and the time row at column q. The four blocked
  inputs and the output all use block index (t, 0) with blocks of 4096 rows, so row p of block t is row 4096·t + p of
  each array; the time row is fetched whole. Hence what point t writes back is block t of ONE function of the five
  arrays, Spec.KArr; the 128 blocks tile the 524288 rows (row r lies in block r / 4096), so after the region the output
  array is that function. The program then reshapes the array to [2, 512, 512, 64] and touches no argument.
-/
import proofs.«140665_g16836271800623_cont_week2b_1426_1_alg».proof.Proof.FrameKI
import proofs.«140665_g16836271800623_cont_week2b_1426_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.KValue

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat)

/-! ## The body's value at one element -/

/-- A [4096, 1] column broadcast to [4096, 64] reads, at (p, q), the column at row p. -/
theorem bcast_col {α : Type} (v : S4096x1.Idx → α) (h : S4096x1.Broadcasts S4096x64) (p : Fin 4096) (q : Fin 64) :
    broadcastTo S4096x64 v h (ix2 p q) = v (ix2 p (0 : Fin 1)) := by
  refine broadcastTo_apply v h (ix2 p q) (ix2 p (0 : Fin 1)) fun ax => ?_
  match ax with
  | ⟨0, _⟩ =>
    show p.val = if (4096 : ℕ) = 1 then 0 else p.val
    rw [if_neg (by decide)]
  | ⟨1, _⟩ =>
    show (0 : ℕ) = if (1 : ℕ) = 1 then 0 else q.val
    rw [if_pos rfl]

/-- A one-bit word zero-extended to 32 bits and read as a signed integer is the bit's own number. -/
theorem bit_toInt (b : BitVec 1) : (b.setWidth 32).toInt = (b.toNat : ℤ) := by
  rcases BitVec.eq_zero_or_eq_one b with h | h <;> subst h <;> decide

/-- The compare's bit, widened and converted to a float, is the bit's number as an extended real. -/
theorem bit_sitofp (b : BitVec 1) : (((b.setWidth 32).toInt : ℝ) : EReal) = ((b.toNat : ℝ) : EReal) := by
  rw [bit_toInt, Int.cast_natCast]

/-- The body's value at row p and column q of the block: the specification's element function of the loaded blocks'
    entries there (v23, v19 the two sums blocks, v0, v2 the two count columns, v17 the time row). -/
theorem pay_apply (v0 v2 : Vec Ideal S4096x1 .f32) (v17 : Vec Ideal S1x64 .f32) (v19 v23 : Vec Ideal S4096x64 .f32)
    (p : Fin 4096) (q : Fin 64) :
    k0_pay1 v0 v2 v17 v19 v23 (ix2 p q)
      = Cert.Spec.kpt (v23 (ix2 p q)) (v19 (ix2 p q)) (v0 (ix2 p (0 : Fin 1))) (v2 (ix2 p (0 : Fin 1))) (v17 (ix2 (0 : Fin 1) q)) := by
  unfold k0_pay1
  simp only [shapeCast_self]
  rw [mulf_apply, addf_apply, subf_apply, mulf_apply, mulf_apply, bcast_col, bcast_col, bcast_col, broadcastTo_1b_ab_apply]
  have hb := bit_sitofp (Ideal.cmp .ogt (v0 (ix2 p (0 : Fin 1)) + v2 (ix2 p (0 : Fin 1))) Cert.Spec.zero)
  unfold Cert.Spec.kpt Cert.Spec.occ
  rw [← hb]
  rfl

/-! ## From the blocks to the array -/

variable (m : (ℓ : Loc nD τ sig) → Buf (Elt Ideal) ℓ)

theorem hz : (![0, 0] : Fin 2 → Nat) = fun _ => 0 := funext fun a => by fin_cases a <;> rfl

/-- The index maps over the grid: at point t the four blocked inputs and the output are at block (t, 0), the time row at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first sums block at point t is rows 4096·t … 4096·t + 4095 of the first sums array. -/
theorem iblk0_apply (c : Dev nD) (t : Fin cfg0.N) (y : S4096x64.Idx) (i : S524288x64.Idx)
    (h0 : (i 0).val = t.val * 4096 + (y 0).val) (h1 : (i 1).val = (y 1).val) :
    (iblk (F := Ideal) m c 0 t : Vec Ideal S4096x64 .f32) y = (V (F := Ideal) m c main_v38 : S524288x64.Idx → EReal) i := by
  obtain ⟨e0, e1, -⟩ := idx_facts t
  unfold iblk
  show V m c main_v38 (((cfg0.win 0).blk t).view.emb y) = V m c main_v38 i
  congr 1
  funext a
  apply Fin.ext
  match a with
  | ⟨0, _⟩ => show win0_0.index t (0 : Fin 2) * 4096 + 1 * (y 0).val = (i 0).val; rw [e0, h0]; omega
  | ⟨1, _⟩ => show win0_0.index t (1 : Fin 2) * 64 + 1 * (y 1).val = (i 1).val; rw [e1, h1]; omega

/-- The second sums block at point t is the same rows of the second sums array. -/
theorem iblk1_apply (c : Dev nD) (t : Fin cfg0.N) (y : S4096x64.Idx) (i : S524288x64.Idx)
    (h0 : (i 0).val = t.val * 4096 + (y 0).val) (h1 : (i 1).val = (y 1).val) :
    (iblk (F := Ideal) m c 1 t : Vec Ideal S4096x64 .f32) y = (V (F := Ideal) m c main_v81 : S524288x64.Idx → EReal) i := by
  obtain ⟨-, -, e0, e1, -⟩ := idx_facts t
  unfold iblk
  show V m c main_v81 (((cfg0.win 1).blk t).view.emb y) = V m c main_v81 i
  congr 1
  funext a
  apply Fin.ext
  match a with
  | ⟨0, _⟩ => show win0_1.index t (0 : Fin 2) * 4096 + 1 * (y 0).val = (i 0).val; rw [e0, h0]; omega
  | ⟨1, _⟩ => show win0_1.index t (1 : Fin 2) * 64 + 1 * (y 1).val = (i 1).val; rw [e1, h1]; omega

/-- The first count column's block at point t is the same rows of the first count column. -/
theorem iblk2_apply (c : Dev nD) (t : Fin cfg0.N) (y : S4096x1.Idx) (i : S524288x1.Idx)
    (h0 : (i 0).val = t.val * 4096 + (y 0).val) :
    (iblk (F := Ideal) m c 2 t : Vec Ideal S4096x1 .f32) y = (V (F := Ideal) m c main_v95 : S524288x1.Idx → EReal) i := by
  obtain ⟨-, -, -, -, e0, e1, -⟩ := idx_facts t
  have hy : (y 1).val < 1 := (y 1).isLt
  have hi : (i 1).val < 1 := (i 1).isLt
  unfold iblk
  show V m c main_v95 (((cfg0.win 2).blk t).view.emb y) = V m c main_v95 i
  congr 1
  funext a
  apply Fin.ext
  match a with
  | ⟨0, _⟩ => show win0_2.index t (0 : Fin 2) * 4096 + 1 * (y 0).val = (i 0).val; rw [e0, h0]; omega
  | ⟨1, _⟩ => show win0_2.index t (1 : Fin 2) * 1 + 1 * (y 1).val = (i 1).val; rw [e1]; omega

/-- The second count column's block at point t is the same rows of the second count column. -/
theorem iblk3_apply (c : Dev nD) (t : Fin cfg0.N) (y : S4096x1.Idx) (i : S524288x1.Idx)
    (h0 : (i 0).val = t.val * 4096 + (y 0).val) :
    (iblk (F := Ideal) m c 3 t : Vec Ideal S4096x1 .f32) y = (V (F := Ideal) m c main_v96 : S524288x1.Idx → EReal) i := by
  obtain ⟨-, -, -, -, -, -, e0, e1, -⟩ := idx_facts t
  have hy : (y 1).val < 1 := (y 1).isLt
  have hi : (i 1).val < 1 := (i 1).isLt
  unfold iblk
  show V m c main_v96 (((cfg0.win 3).blk t).view.emb y) = V m c main_v96 i
  congr 1
  funext a
  apply Fin.ext
  match a with
  | ⟨0, _⟩ => show win0_3.index t (0 : Fin 2) * 4096 + 1 * (y 0).val = (i 0).val; rw [e0, h0]; omega
  | ⟨1, _⟩ => show win0_3.index t (1 : Fin 2) * 1 + 1 * (y 1).val = (i 1).val; rw [e1]; omega

/-- The time row's block at every point is the whole time row. -/
theorem iblk4_eq (c : Dev nD) (t : Fin cfg0.N) :
    (iblk (F := Ideal) m c 4 t : Vec Ideal S1x64 .f32) = (V (F := Ideal) m c main_v97 : S1x64.Idx → EReal) := by
  obtain ⟨-, -, -, -, -, -, -, -, e0, e1, -⟩ := idx_facts t
  unfold iblk
  funext y
  show V m c main_v97 (((cfg0.win 4).blk t).view.emb y) = V m c main_v97 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- One element of what a point stores: if the five loaded blocks are rows 4096·n … of the arrays a0 … a3 (sums, sums,
    counts, counts) and the whole row a4, the stored value at block entry y is the specification's array function at the
    array entry i in row 4096·n + y's row and y's column. -/
theorem elem_eq (a0 a1 : S524288x64.Idx → EReal) (a2 a3 : S524288x1.Idx → EReal) (a4 : S1x64.Idx → EReal)
    (x0 x1 : Vec Ideal S4096x64 .f32) (x2 x3 : Vec Ideal S4096x1 .f32) (x4 : Vec Ideal S1x64 .f32) (n : ℕ)
    (h0 : ∀ (y : S4096x64.Idx) (i : S524288x64.Idx), (i 0).val = n * 4096 + (y 0).val → (i 1).val = (y 1).val → x0 y = a0 i)
    (h1 : ∀ (y : S4096x64.Idx) (i : S524288x64.Idx), (i 0).val = n * 4096 + (y 0).val → (i 1).val = (y 1).val → x1 y = a1 i)
    (h2 : ∀ (y : S4096x1.Idx) (i : S524288x1.Idx), (i 0).val = n * 4096 + (y 0).val → x2 y = a2 i)
    (h3 : ∀ (y : S4096x1.Idx) (i : S524288x1.Idx), (i 0).val = n * 4096 + (y 0).val → x3 y = a3 i)
    (h4 : x4 = a4)
    (y : S4096x64.Idx) (i : S524288x64.Idx) (hi0 : (i 0).val = n * 4096 + (y 0).val) (hi1 : (i 1).val = (y 1).val) :
    k0_pay1 x2 x3 x4 x1 x0 y = Cert.Spec.KArr a0 a1 a2 a3 a4 i := by
  obtain ⟨p, q, rfl⟩ : ∃ (p : Fin 4096) (q : Fin 64), y = ix2 p q := ⟨y 0, y 1, eq_ix2 y⟩
  have e : (ix2 (0 : Fin 1) q : S1x64.Idx) = Cert.Spec.rowOf i := by
    funext d
    match d with
    | ⟨0, _⟩ => rfl
    | ⟨1, _⟩ => exact Fin.ext hi1.symm
  rw [pay_apply]
  unfold Cert.Spec.KArr
  rw [h0 (ix2 p q) i hi0 hi1, h1 (ix2 p q) i hi0 hi1, h2 (ix2 p (0 : Fin 1)) (Cert.Spec.colOf i) hi0,
    h3 (ix2 p (0 : Fin 1)) (Cert.Spec.colOf i) hi0, h4, e]

/-- What point t writes back is block t of the specification's array function of the five arrays the region reads. -/
theorem flushed5_eq (c : Dev nD) (t : Fin cfg0.N) :
    (dats (F := Ideal) m 0 c).flushed 5 t
      = ((cfg0.win 5).blk t).view.read (Elt Ideal)
          (Cert.Spec.KArr (V m c main_v38) (V m c main_v81) (V m c main_v95) (V m c main_v96) (V m c main_v97)) := by
  obtain ⟨-, -, -, -, -, -, -, -, -, -, e0, e1⟩ := idx_facts t
  show (cfg0.win 5).cut (grid0.coords t) ((dats m 0 c).after 5 t) = _
  rw [after5]
  unfold out5
  rw [View.canon_unit_zero hz]
  simp only [View.ld_unit_zero (S := S4096x64) hz, View.ld_unit_zero (S := S4096x1) hz, View.ld_unit_zero (S := S1x64) hz]
  funext j
  refine elem_eq (V m c main_v38) (V m c main_v81) (V m c main_v95) (V m c main_v96) (V m c main_v97)
    (iblk m c 0 t) (iblk m c 1 t) (iblk m c 2 t) (iblk m c 3 t) (iblk m c 4 t) t.val
    (iblk0_apply m c t) (iblk1_apply m c t) (iblk2_apply m c t) (iblk3_apply m c t) (iblk4_eq m c t)
    ((cfg0.win 5).xinj (grid0.coords t) j) (((cfg0.win 5).blk t).view.emb j) ?_ ?_
  · show win0_5.index t (0 : Fin 2) * 4096 + 1 * (j 0).val = t.val * 4096 + (j 0).val
    rw [e0]; omega
  · show win0_5.index t (1 : Fin 2) * 64 + 1 * (j 1).val = (j 1).val
    rw [e1]; omega

/-- An entry of the output array is in point t's block iff each coordinate lies in the block's range on its axis. -/
theorem mem_blk5 (t : Fin cfg0.N) (i : S524288x64.Idx) :
    i ∈ ((cfg0.win 5).blk t).view.set ↔ ∀ a : Fin 2, win0_5.index t a * S4096x64.size a ≤ (i a).val
      ∧ (i a).val < win0_5.index t a * S4096x64.size a + S4096x64.size a := by
  show i ∈ ((View.whole main_v98).slice (win0_5.rect t)).set ↔ _
  rw [View.set_slice_whole, Rect.mem_set_unit]
  exact Iff.rfl

/-- The point whose block holds row r: r / 4096. -/
def ptOf (r : ℕ) (hr : r < 524288) : Fin cfg0.N := ⟨r / 4096, lt_of_lt_of_eq (by omega) N_0.symm⟩

/-- The 128 blocks tile the output array: entry i is in the block of point (row of i) / 4096, which is written back. -/
theorem rows_covered (i : S524288x64.Idx) :
    ∃ t : Fin cfg0.N, (cfg0.win 5).flush t = true ∧ i ∈ ((cfg0.win 5).blk t).view.set := by
  have hi0 : (i 0).val < 524288 := (i 0).isLt
  have hi1 : (i 1).val < 64 := (i 1).isLt
  obtain ⟨-, -, -, -, -, -, -, -, -, -, e0, e1⟩ := idx_facts (ptOf (i 0).val hi0)
  refine ⟨ptOf (i 0).val hi0, flush0_5 _, ?_⟩
  rw [mem_blk5]
  intro a
  match a with
  | ⟨0, _⟩ =>
    show win0_5.index (ptOf (i 0).val hi0) (0 : Fin 2) * 4096 ≤ (i 0).val
      ∧ (i 0).val < win0_5.index (ptOf (i 0).val hi0) (0 : Fin 2) * 4096 + 4096
    rw [e0]
    show (i 0).val / 4096 * 4096 ≤ (i 0).val ∧ (i 0).val < (i 0).val / 4096 * 4096 + 4096
    omega
  | ⟨1, _⟩ =>
    show win0_5.index (ptOf (i 0).val hi0) (1 : Fin 2) * 64 ≤ (i 1).val
      ∧ (i 1).val < win0_5.index (ptOf (i 0).val hi0) (1 : Fin 2) * 64 + 64
    rw [e1]
    omega

/-! ## The host operation after the region -/

/-- The program's result buffer after the last host operation is the reshape of whatever the region left in its output
    array: the reshape reads that array, which the region's exit has at the proof data's final contents. -/
theorem tail_v99_of (c : Dev nD) (G : S524288x64.Idx → EReal) (hG : (dats (F := Ideal) m 0 c).arrAt 5 cfg0.N = G) :
    Pipeline.afterTail₀ cfgs (dats (F := Ideal) m) 0 (V0 m) [hostOps1] c main_v99
      = shapeCast S2x512x512x64 G shapeCasts_S524288x64_S2x512x512x64 := by
  unfold Pipeline.afterTail₀
  show StableHlo.after hostOps1 _ (Proc.devRef .tc main_v99) = _
  after_results
  exact congrArg (fun X : S524288x64.Idx → EReal => shapeCast S2x512x512x64 X shapeCasts_S524288x64_S2x512x512x64)
    ((Pipeline.withArrays_arr spec0 launch0.win.arr_inj c (V0 m c) (fun w => (dats (F := Ideal) m 0 c).arrAt w cfg0.N) 5).trans hG)

open Cert.KernelIdeal Cert.KernelIdeal.Gen Cert.KernelIdeal.Frame in
/-- after the region the output array is KArr of the five arrays the region reads -/
theorem final5 (m : (ℓ : Loc nD τ sig) → Buf (Elt Ideal) ℓ) (c : Dev nD) :
    (dats (F := Ideal) m 0 c).arrAt 5 cfg0.N
      = Cert.Spec.KArr (V m c main_v38) (V m c main_v81) (V m c main_v95) (V m c main_v96) (V m c main_v97) :=
  (dats (F := Ideal) m 0 c).arrAt_eq_of_cover 5
    (Cert.Spec.KArr (V m c main_v38) (V m c main_v81) (V m c main_v95) (V m c main_v96) (V m c main_v97))
    (fun t _ => flushed5_eq m c t) rows_covered

open Cert.KernelIdeal Cert.KernelIdeal.Gen Cert.KernelIdeal.Frame in
/-- the kernel program's run with its result named: the reshape of that array; the arguments unchanged -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v99)
        = shapeCast S2x512x512x64 (Cert.Spec.KArr (V m c main_v38) (V m c main_v81) (V m c main_v95) (V m c main_v96) (V m c main_v97)) shapeCasts_S524288x64_S2x512x512x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v99 (Pipeline.mem_restRefs_of _ rfl (by decide))).trans (tail_v99_of m c _ (final5 m c)),
      ((h c).2 main_arg0 (Pipeline.mem_restRefs_of _ rfl (by decide))).trans (tail_arg0 m (dats m) c),
      ((h c).2 main_arg1 (Pipeline.mem_restRefs_of _ rfl (by decide))).trans (tail_arg1 m (dats m) c),
      ((h c).2 main_arg2 (Pipeline.mem_restRefs_of _ rfl (by decide))).trans (tail_arg2 m (dats m) c),
      ((h c).2 main_arg3 (Pipeline.mem_restRefs_of _ rfl (by decide))).trans (tail_arg3 m (dats m) c),
      ((h c).2 main_arg4 (Pipeline.mem_restRefs_of _ rfl (by decide))).trans (tail_arg4 m (dats m) c),
      ((h c).2 main_arg5 (Pipeline.mem_restRefs_of _ rfl (by decide))).trans (tail_arg5 m (dats m) c),
      ((h c).2 main_arg6 (Pipeline.mem_restRefs_of _ rfl (by decide))).trans (tail_arg6 m (dats m) c)⟩)
    (run_main (F := Ideal) m ρ)

end Cert.KernelIdeal.KValue

end
-- ==== Proof.TimeRow.lean ====
/-
  The time row of the kernel program: the row of W_time at the time index (counted from the end when negative) plus
  b_time, as a [1, 64] array. The slice is a dynamic one: its start indices are clamped into the array, so at a time index
  outside [-4, 4) it reads the first or the last row.

  Stated for an arbitrary float instance.
-/
import proofs.«140665_g16836271800623_cont_week2b_1426_1_alg».proof.Proof.Gen.KernelIdeal

noncomputable section

namespace Cert.KernelIdeal.HostChain

open Cert.KernelIdeal Cert.KernelIdeal.Gen
open Idealize.ShloMosaic

variable {F : FTy → Type} [FloatOps F]

/-- The time index with a negative value counted from the end: i + 4 where i < 0, else i. -/
def normIdx (x6 : IVec S_ 32) : IVec S_ 32 :=
  select (cmpi .slt x6 (constantI S_ 32 0#32)) (addi x6 (constantI S_ 32 4#32)) x6
/-- The column start: the same selection over the constant 0, which is 0. -/
def colIdx : IVec S_ 32 :=
  select (cmpi .slt (constantI S_ 32 0#32) (constantI S_ 32 0#32)) (addi (constantI S_ 32 0#32) (constantI S_ 32 64#32)) (constantI S_ 32 0#32)
/-- The two start indices of the slice, read signed. -/
def startIdx (x6 : IVec S_ 32) : Fin 2 → Int := fun k => ((![normIdx x6, colIdx] : Fin 2 → IVec S_ 32) k (Shape.Idx.first h_S_)).toInt
/-- The time row: the [1, 64] slice of W_time (x4) at those starts, flattened, plus b_time (x5), as a [1, 64] array. -/
def timeRow (x4 : FVec F S4x64 .f32) (x5 : FVec F S64 .f32) (x6 : IVec S_ 32) : FVec F S1x64 .f32 :=
  broadcastInDim S1x64 ![1] bcast_S64_S1x64_1
    (addf (shapeCast S64 (Host.dynamicSlice S1x64 x4 (startIdx x6) sliceFits_S4x64_S1x64) shapeCasts_S1x64_S64) x5)

end Cert.KernelIdeal.HostChain

end
-- ==== Proof.TimeFeat.lean ====
/-
  The time feature, two ways. The reference multiplies a one-hot row by W_time: a [2, 4] array of zeros with a one
  written into column n of both rows, n the time index counted from the end when negative; an index outside the array
  would be dropped. The kernel program cuts row n out of W_time by a dynamic slice, whose start is clamped into the
  array. For a time index in [-4, 4) the normalised index n lies in [0, 4): nothing is dropped and nothing is clamped,
  the sum over k of onehot[b, k] * W_time[k, f] has the single term 1 * W_time[n, f] (1 * x = x and 0 * x = 0 for every
  extended real x), and both sides are W_time[n, f] + b_time[f]. No finiteness of W_time or b_time is used.

  The range of the time index is the last two conjuncts of the precondition.
-/
import proofs.«140665_g16836271800623_cont_week2b_1426_1_alg».proof.Proof.TimeRow
import proofs.«140665_g16836271800623_cont_week2b_1426_1_alg».proof.Proof.RefRead
import proofs.«140665_g16836271800623_cont_week2b_1426_1_alg».proof.Defs
import proofs.«140665_g16836271800623_cont_week2b_1426_1_alg».proof.Proof.Gen.Pre_finite_inputs
import Idealize.ShloMosaic.Lib.DynamicIndex
import Idealize.ShloMosaic.Lib.ValueIdx
import Idealize.ShloMosaic.Lib.ValueLayout
import Idealize.ShloMosaic.Lib.Pipeline.Value
import Idealize.ShloMosaic.Lib.Affine
import Idealize.ShloMosaic.Lib.StableHlo.Predicate
import Idealize.ShloMosaic.PureOps.Ideal.Laws

noncomputable section

namespace Cert.TimeFeat

open Idealize.ShloMosaic Idealize.SL.Sem

/-! ## The index word -/

/-- The normalised index of one word: i + 4 where i is negative read signed, else i. -/
def nrm (w : BitVec 32) : BitVec 32 := Scalar.select (IntOp.cmpi .slt w 0#32) (IntOp.addi w 4#32) w

/-- A 32-bit word whose signed value lies in [-4, 4) is one of eight words. -/
theorem word_cases (w : BitVec 32) (hlo : -4 ≤ w.toInt) (hhi : w.toInt < 4) :
    w = 4294967292#32 ∨ w = 4294967293#32 ∨ w = 4294967294#32 ∨ w = 4294967295#32
      ∨ w = 0#32 ∨ w = 1#32 ∨ w = 2#32 ∨ w = 3#32 := by
  have key : ∀ v : BitVec 32, w.toInt = v.toInt → w = v := fun v hv => BitVec.eq_of_toInt_eq hv
  generalize w.toInt = z at hlo hhi key
  interval_cases z
  · exact Or.inl (key _ (by decide))
  · exact Or.inr (Or.inl (key _ (by decide)))
  · exact Or.inr (Or.inr (Or.inl (key _ (by decide))))
  · exact Or.inr (Or.inr (Or.inr (Or.inl (key _ (by decide)))))
  · exact Or.inr (Or.inr (Or.inr (Or.inr (Or.inl (key _ (by decide))))))
  · exact Or.inr (Or.inr (Or.inr (Or.inr (Or.inr (Or.inl (key _ (by decide)))))))
  · exact Or.inr (Or.inr (Or.inr (Or.inr (Or.inr (Or.inr (Or.inl (key _ (by decide))))))))
  · exact Or.inr (Or.inr (Or.inr (Or.inr (Or.inr (Or.inr (Or.inr (key _ (by decide))))))))

/-- In that range the normalised index lies in [0, 4). -/
theorem nrm_range (w : BitVec 32) (hlo : -4 ≤ w.toInt) (hhi : w.toInt < 4) :
    0 ≤ (nrm w).toInt ∧ (nrm w).toInt < 4 := by
  rcases word_cases w hlo hhi with h | h | h | h | h | h | h | h <;> subst h <;> decide

/-! ## A left fold of point updates, read at one index -/

section Fold
variable {ι κ α : Type}

/-- A fold of point updates leaves an index none of them aims at as it was. -/
theorem foldl_miss (step : (ι → α) → κ → (ι → α)) (tgt : κ → ι)
    (hmiss : ∀ r m i', i' ≠ tgt m → step r m i' = r i') (i : ι) :
    ∀ (l : List κ) (x : ι → α), (∀ m ∈ l, i ≠ tgt m) → l.foldl step x i = x i
  | [], _, _ => rfl
  | m :: l, x, h => by
    rw [List.foldl_cons, foldl_miss step tgt hmiss i l (step x m) (fun m' hm' => h m' (List.mem_cons_of_mem _ hm'))]
    exact hmiss x m i (h m (List.mem_cons_self))

/-- A fold of point updates that all write the same value v leaves v at an index one of them aims at. -/
theorem foldl_hit (step : (ι → α) → κ → (ι → α)) (tgt : κ → ι) (v : α)
    (hhit : ∀ r m, step r m (tgt m) = v)
    (hmiss : ∀ r m i', i' ≠ tgt m → step r m i' = r i') (i : ι) :
    ∀ (l : List κ) (x : ι → α), (∃ m ∈ l, i = tgt m) → l.foldl step x i = v
  | [], _, h => by obtain ⟨m, hm, _⟩ := h; cases hm
  | m :: l, x, h => by
    rw [List.foldl_cons]
    by_cases hl : ∃ m' ∈ l, i = tgt m'
    · exact foldl_hit step tgt v hhit hmiss i l (step x m) hl
    · have hl' : ∀ m' ∈ l, i ≠ tgt m' := fun m' hm' e => hl ⟨m', hm', e⟩
      rw [foldl_miss step tgt hmiss i l (step x m) hl']
      obtain ⟨m', hm', e⟩ := h
      rcases List.mem_cons.1 hm' with rfl | hm''
      · rw [e]; exact hhit x m'
      · exact absurd e (hl' m' hm'')

end Fold

/-! ## The reference's one-hot row -/

section OneHot
open Cert.ReferenceIdeal Cert.ReferenceIdeal.Gen Cert.ReferenceIdeal.ReadP

local instance : Subsingleton S1.Idx :=
  ⟨fun a b => funext fun d => match d with
    | ⟨0, _⟩ => Fin.ext (by
        have ha : (a ⟨0, Nat.one_pos⟩).val < 1 := (a ⟨0, Nat.one_pos⟩).isLt
        have hb : (b ⟨0, Nat.one_pos⟩).val < 1 := (b ⟨0, Nat.one_pos⟩).isLt
        omega)⟩

variable (idx : IVec S1 32) (j : S2.Idx)

theorem sd_start0 : scatter_S2x4_S1_S2_0_1_1_0.start j idx 0 = 0 := by
  unfold ScatterDims.start
  rw [dif_neg (by decide)]

theorem sd_start1 : scatter_S2x4_S1_S2_0_1_1_0.start j idx 1 = (idx (ValueIdx.ix1 (n := 1) ⟨0, Nat.one_pos⟩)).toInt := by
  unfold ScatterDims.start
  rw [dif_pos (by decide)]
  exact congrArg (fun i => (idx i).toInt) (Subsingleton.elim _ _)

theorem sd_window0 : scatter_S2x4_S1_S2_0_1_1_0.window j 0 = (j 0).val := by
  unfold ScatterDims.window
  rw [dif_pos (by decide)]
  rfl

theorem sd_window1 : scatter_S2x4_S1_S2_0_1_1_0.window j 1 = 0 := by
  unfold ScatterDims.window
  rw [dif_neg (by decide)]

/-- With the index word n in [0, 4), update row b lands at (b, n). -/
theorem sd_resultIdx (n : Fin 4) (hn : (idx (ValueIdx.ix1 (n := 1) ⟨0, Nat.one_pos⟩)).toInt = (n.val : Int)) (b : Fin 2) :
    scatter_S2x4_S1_S2_0_1_1_0.resultIdx? (ValueIdx.ix1 (n := 2) b) idx = some (ValueIdx.ix2 (n0 := 2) (n1 := 4) b n) := by
  have h : ∀ a, 0 ≤ scatter_S2x4_S1_S2_0_1_1_0.start (ValueIdx.ix1 (n := 2) b) idx a + scatter_S2x4_S1_S2_0_1_1_0.window (ValueIdx.ix1 (n := 2) b) a
      ∧ scatter_S2x4_S1_S2_0_1_1_0.start (ValueIdx.ix1 (n := 2) b) idx a + scatter_S2x4_S1_S2_0_1_1_0.window (ValueIdx.ix1 (n := 2) b) a < S2x4.size a := fun a => by
    have hb := b.isLt
    have hn' := n.isLt
    match a with
    | ⟨0, _⟩ =>
      show 0 ≤ scatter_S2x4_S1_S2_0_1_1_0.start (ValueIdx.ix1 (n := 2) b) idx 0 + scatter_S2x4_S1_S2_0_1_1_0.window (ValueIdx.ix1 (n := 2) b) 0
        ∧ scatter_S2x4_S1_S2_0_1_1_0.start (ValueIdx.ix1 (n := 2) b) idx 0 + scatter_S2x4_S1_S2_0_1_1_0.window (ValueIdx.ix1 (n := 2) b) 0 < ((2 : Nat) : Int)
      rw [sd_start0, sd_window0]
      show (0 : Int) ≤ 0 + (b.val : Int) ∧ (0 : Int) + (b.val : Int) < ((2 : Nat) : Int)
      omega
    | ⟨1, _⟩ =>
      show 0 ≤ scatter_S2x4_S1_S2_0_1_1_0.start (ValueIdx.ix1 (n := 2) b) idx 1 + scatter_S2x4_S1_S2_0_1_1_0.window (ValueIdx.ix1 (n := 2) b) 1
        ∧ scatter_S2x4_S1_S2_0_1_1_0.start (ValueIdx.ix1 (n := 2) b) idx 1 + scatter_S2x4_S1_S2_0_1_1_0.window (ValueIdx.ix1 (n := 2) b) 1 < ((4 : Nat) : Int)
      rw [sd_start1, sd_window1, hn]
      omega
  unfold ScatterDims.resultIdx?
  rw [dif_pos h]
  refine congrArg some (funext fun a => ?_)
  match a with
  | ⟨0, _⟩ =>
    refine Fin.ext ?_
    show (scatter_S2x4_S1_S2_0_1_1_0.start (ValueIdx.ix1 (n := 2) b) idx 0 + scatter_S2x4_S1_S2_0_1_1_0.window (ValueIdx.ix1 (n := 2) b) 0).toNat = b.val
    rw [sd_start0, sd_window0]
    show ((0 : Int) + (b.val : Int)).toNat = b.val
    omega
  | ⟨1, _⟩ =>
    refine Fin.ext ?_
    show (scatter_S2x4_S1_S2_0_1_1_0.start (ValueIdx.ix1 (n := 2) b) idx 1 + scatter_S2x4_S1_S2_0_1_1_0.window (ValueIdx.ix1 (n := 2) b) 1).toNat = n.val
    rw [sd_start1, sd_window1, hn]
    omega

/-- The reference's index array is the normalised index of the time word. -/
theorem v105_apply (x6 : IVec S_ 32) (j : S1.Idx) :
    val_main_v105 (F := Ideal) x6 j = nrm (x6 ValueIdx.ix0) := by
  rw [val_main_v105_apply, ValueIdx.eq_ix0 (idx_main_v105 j)]
  rfl

/-- The reference's one-hot array at (b, k): one where k is the index word n, zero elsewhere. -/
theorem onehot_apply (x6 : IVec S_ 32) (n : Fin 4)
    (hn : (nrm (x6 ValueIdx.ix0)).toInt = (n.val : Int)) (b : Fin 2) (k : Fin 4) :
    val_main_v107 (F := Ideal) x6 (ValueIdx.ix2 (n0 := 2) (n1 := 4) b k) = if k = n then (1 : EReal) else 0 := by
  have hn' : (val_main_v105 (F := Ideal) x6 (ValueIdx.ix1 (n := 1) ⟨0, Nat.one_pos⟩)).toInt = (n.val : Int) := by
    rw [v105_apply]; exact hn
  unfold val_main_v107
  generalize val_main_v105 (F := Ideal) x6 = idx at hn'
  have hres : ∀ m : Fin S2.numel, scatter_S2x4_S1_S2_0_1_1_0.resultIdx? (S2.rowMajor.symm m) idx
      = some (ValueIdx.ix2 (n0 := 2) (n1 := 4) ((S2.rowMajor.symm m) 0) n) := fun m => by
    obtain ⟨c, hc⟩ : ∃ c : Fin 2, S2.rowMajor.symm m = ValueIdx.ix1 (n := 2) c := ⟨_, ValueIdx.eq_ix1 _⟩
    rw [hc]
    exact sd_resultIdx idx n hn' c
  unfold Host.scatter
  by_cases hk : k = n
  · subst hk
    rw [if_pos rfl]
    refine foldl_hit _ (fun m => ValueIdx.ix2 (n0 := 2) (n1 := 4) ((S2.rowMajor.symm m) 0) k) 1 ?_ ?_
      (ValueIdx.ix2 (n0 := 2) (n1 := 4) b k) _ _
      ⟨S2.rowMajor (ValueIdx.ix1 (n := 2) b), List.mem_finRange _, ?_⟩
    · intro r m
      dsimp only
      rw [hres m]
      dsimp only
      rw [if_pos rfl, val_main_v106_apply, val_main_cst_32_apply]
      show Ideal.ofBits .f32 0x3F800000#32 = 1
      simp [Ideal.ofBits, Ideal.ieee, -EReal.coe_mul]
      norm_num
    · intro r m i' hne
      dsimp only
      rw [hres m]
      dsimp only
      rw [if_neg hne]
    · rw [Equiv.symm_apply_apply]
  · rw [if_neg hk]
    refine (foldl_miss _ (fun m => ValueIdx.ix2 (n0 := 2) (n1 := 4) ((S2.rowMajor.symm m) 0) n) ?_
      (ValueIdx.ix2 (n0 := 2) (n1 := 4) b k) _ _
      (fun m _ e => hk (by have := congrFun e ⟨1, by decide⟩; exact this))).trans ?_
    · intro r m i' hne
      dsimp only
      rw [hres m]
      dsimp only
      rw [if_neg hne]
    · rw [val_main_v101_apply, val_main_cst_29_apply]
      show Ideal.ofBits .f32 0x00000000#32 = 0
      simp [Ideal.ofBits, Ideal.ieee]

/-- The reference's time feature at (b, f): row n of W_time plus b_time, whichever b. -/
theorem ref_time (x4 : (⟨S4x64, .f32⟩ : BufTy).Contents (Elt Ideal)) (x5 : (⟨S64, .f32⟩ : BufTy).Contents (Elt Ideal))
    (x6 : IVec S_ 32) (n : Fin 4) (hn : (nrm (x6 ValueIdx.ix0)).toInt = (n.val : Int)) (b : Fin 2) (f : Fin 64) :
    val_main_v111 (F := Ideal) x4 x5 x6 (ValueIdx.ix2 (n0 := 2) (n1 := 64) b f)
      = x4 (ValueIdx.ix2 (n0 := 4) (n1 := 64) n f) + x5 (ValueIdx.ix1 (n := 64) f) := by
  rw [val_main_v111_apply, val_main_v108_apply, val_main_v110_apply, val_main_v109_apply]
  have hl : ∀ k : Fin 4, lidx_main_v108 (ValueIdx.ix2 (n0 := 2) (n1 := 64) b f) k = ValueIdx.ix2 (n0 := 2) (n1 := 4) b k :=
    fun k => funext fun a => match a with | ⟨0, _⟩ => rfl | ⟨1, _⟩ => rfl
  have hr : ∀ k : Fin 4, ridx_main_v108 (ValueIdx.ix2 (n0 := 2) (n1 := 64) b f) k = ValueIdx.ix2 (n0 := 4) (n1 := 64) k f :=
    fun k => funext fun a => match a with | ⟨0, _⟩ => rfl | ⟨1, _⟩ => rfl
  have h5 : idx_main_v109 (idx_main_v110 (ValueIdx.ix2 (n0 := 2) (n1 := 64) b f)) = ValueIdx.ix1 (n := 64) f :=
    funext fun a => match a with | ⟨0, _⟩ => rfl
  rw [h5]
  show (∑ k : Fin 4, val_main_v107 (F := Ideal) x6 (lidx_main_v108 (ValueIdx.ix2 (n0 := 2) (n1 := 64) b f) k)
        * x4 (ridx_main_v108 (ValueIdx.ix2 (n0 := 2) (n1 := 64) b f) k)) + x5 (ValueIdx.ix1 (n := 64) f) = _
  refine congrArg (· + x5 (ValueIdx.ix1 (n := 64) f)) ?_
  rw [Finset.sum_eq_single n]
  · rw [hl, hr, onehot_apply x6 n hn b n, if_pos rfl, one_mul]
  · intro k _ hk
    rw [hl, onehot_apply x6 n hn b k, if_neg hk, zero_mul]
  · intro h; exact absurd (Finset.mem_univ n) h

end OneHot

/-! ## The kernel's time row -/

section Kernel
open Cert.KernelIdeal Cert.KernelIdeal.Gen Cert.KernelIdeal.HostChain

/-- The kernel's time row at (0, f): row n of W_time plus b_time, the slice's start being in range. -/
theorem ker_time (x4 : FVec Ideal S4x64 .f32) (x5 : FVec Ideal S64 .f32) (x6 : IVec S_ 32) (n : Fin 4)
    (hn : (nrm (x6 ValueIdx.ix0)).toInt = (n.val : Int)) (f : Fin 64) :
    timeRow (F := Ideal) x4 x5 x6 (ValueIdx.ix2 (n0 := 1) (n1 := 64) ⟨0, Nat.one_pos⟩ f)
      = x4 (ValueIdx.ix2 (n0 := 4) (n1 := 64) n f) + x5 (ValueIdx.ix1 (n := 64) f) := by
  have hoff : S4x64.Slices ![n.val, 0] S1x64 := ⟨rfl, fun a => match a with
    | ⟨0, _⟩ => by have := n.isLt; show n.val + 1 ≤ 4; omega
    | ⟨1, _⟩ => by show 0 + 64 ≤ 64; omega⟩
  have hs : ∀ a, startIdx x6 a = (((![n.val, 0] : Fin 2 → Nat) a : Nat) : Int) := fun a => match a with
    | ⟨0, _⟩ => by
      show (normIdx x6 (Shape.Idx.first h_S_)).toInt = (n.val : Int)
      rw [ValueIdx.eq_ix0 (Shape.Idx.first h_S_)]
      exact hn
    | ⟨1, _⟩ => by
      show (colIdx (Shape.Idx.first h_S_)).toInt = ((0 : Nat) : Int)
      decide
  unfold timeRow
  rw [broadcastInDim_apply _ _ _ _ (ValueIdx.ix1 (n := 64) f) (fun a => match a with
    | ⟨0, _⟩ => by show f.val = if (64 : Nat) = 1 then 0 else f.val; rw [if_neg (by decide)])]
  rw [ValueIdx.addf_apply]
  refine congrArg (· + x5 (ValueIdx.ix1 (n := 64) f)) ?_
  rw [shapeCast_apply _ _ (ValueIdx.ix1 (n := 64) f) (ValueIdx.ix2 (n0 := 1) (n1 := 64) ⟨0, Nat.one_pos⟩ f) (by
    rw [Shape.rowMajor_val_two, Shape.rowMajor_val_one]; show 0 * 64 + f.val = f.val; omega)]
  rw [Host.dynamicSlice_eq_extractStridedSlice S1x64 x4 (startIdx x6) ![n.val, 0] _ hoff hs]
  exact ValueIdx.slice2_axis0_apply n.val x4 hoff ⟨0, Nat.one_pos⟩ f n (by simp)

end Kernel

/-- the precondition bounds the time index -/
theorem idx_range (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) (i : Cert.KernelIdeal.S_.Idx) :
    -4 ≤ (m ((c.tc : Thread Cert.KernelIdeal.nD Cert.KernelIdeal.τ).loc Cert.KernelIdeal.main_arg6) i).toInt
    ∧ (m ((c.tc : Thread Cert.KernelIdeal.nD Cert.KernelIdeal.τ).loc Cert.KernelIdeal.main_arg6) i).toInt < 4 := by
  have h1 := congrFun (h c) i
  dsimp only [Cert.Pre_finite_inputs.fn, Cert.Pre_finite_inputs.fn_part1] at h1
  obtain ⟨h2, hlt⟩ := IntOp.andi_eq_one.1 h1
  obtain ⟨_, hge⟩ := IntOp.andi_eq_one.1 h2
  generalize m ((c.tc : Thread Cert.KernelIdeal.nD Cert.KernelIdeal.τ).loc Cert.KernelIdeal.main_arg6) = x6 at hlt hge ⊢
  clear h1 h2
  have hge' : BitVec.ofBool ((4294967292#32 : BitVec 32).sle (x6 i)) = 1#1 := hge
  have hlt' : BitVec.ofBool ((x6 i).slt (4#32 : BitVec 32)) = 1#1 := hlt
  rw [StableHlo.Predicate.ofBool_eq_one_iff] at hge' hlt'
  simp only [BitVec.sle, BitVec.slt, decide_eq_true_eq] at hge' hlt'
  have e1 : (4294967292#32 : BitVec 32).toInt = -4 := by decide
  have e2 : (4#32 : BitVec 32).toInt = 4 := by decide
  rw [e1] at hge'
  rw [e2] at hlt'
  exact ⟨hge', hlt'⟩

/-- in that range the kernel's time row is either row of the reference's time feature -/
theorem timeRow_eq (x4 : FVec Ideal Cert.KernelIdeal.S4x64 .f32) (x5 : FVec Ideal Cert.KernelIdeal.S64 .f32) (x6 : IVec Cert.KernelIdeal.S_ 32)
    (hlo : ∀ i, -4 ≤ (x6 i).toInt) (hhi : ∀ i, (x6 i).toInt < 4) (b : Fin 2) (f : Fin 64) :
    Cert.KernelIdeal.HostChain.timeRow (F := Ideal) x4 x5 x6 (ValueIdx.ix2 (n0 := 1) (n1 := 64) ⟨0, Nat.one_pos⟩ f)
      = Cert.ReferenceIdeal.ReadP.val_main_v111 (F := Ideal) x4 x5 x6 (ValueIdx.ix2 (n0 := 2) (n1 := 64) b f) := by
  obtain ⟨h0, h4⟩ := nrm_range (x6 ValueIdx.ix0) (hlo _) (hhi _)
  have hn : (nrm (x6 ValueIdx.ix0)).toInt = ((⟨(nrm (x6 ValueIdx.ix0)).toInt.toNat, by omega⟩ : Fin 4).val : Int) := by
    show _ = (((nrm (x6 ValueIdx.ix0)).toInt.toNat : Nat) : Int)
    omega
  exact (ker_time x4 x5 x6 _ hn f).trans (ref_time x4 x5 x6 _ hn b f).symm

end Cert.TimeFeat

end
-- ==== Proof.HostChain.lean ====
/-
  The five arrays the region reads, as functions of the program's arguments.

  Before the region the host computes from each point cloud pc (with W_feat and b_feat) the per-voxel feature sums
  and from pc alone the per-voxel point counts; the reference program computes the same two arrays by the same
  operations in the same order, so the kernel program's arrays are the reference's stage functions applied to the kernel
  program's own arguments (the first four statements below). The fifth array is the time row, which only the kernel
  program computes this way: the row of W_time at the time index (counted from the end when negative) plus b_time, as a
  [1, 64] array.

  Everything is stated for an arbitrary float instance.
-/
import proofs.«140665_g16836271800623_cont_week2b_1426_1_alg».proof.Proof.FrameKI
import proofs.«140665_g16836271800623_cont_week2b_1426_1_alg».proof.Proof.TimeRow
import proofs.«140665_g16836271800623_cont_week2b_1426_1_alg».proof.Proof.RefRead
import Idealize.ShloMosaic.Lib.StableHlo.Run

set_option maxRecDepth 16384

noncomputable section

namespace Cert.KernelIdeal.HostChain

open Cert.KernelIdeal Cert.KernelIdeal.Gen Cert.KernelIdeal.Frame
open Idealize.ShloMosaic Idealize.ShloMosaic.TcCoe Idealize.SL.Sem Idealize.ShloMosaic.StableHlo

variable {F : FTy → Type} [FloatOps F]

/-! ## The time row (its definition is the module TimeRow's) -/

/-- A slice depends on its start indices only through their values. -/
theorem dynSlice_congr {α : Type} {s : Shape} (t : Shape) (x : s.Idx → α) (st st' : Fin s.rank → Int) (h : s.Slices (fun _ => 0) t)
    (e : ∀ k, st k = st' k) : Host.dynamicSlice t x st h = Host.dynamicSlice t x st' h := by
  rw [funext e]

variable (m : (ℓ : Loc nD τ sig) → Buf (Elt F) ℓ)

set_option maxHeartbeats 4000000 in
/-- The time-row array at the region's entry. -/
theorem V_v97 (c : Dev nD) : V m c main_v97 = timeRow (F := F) (m ((c : Thread nD τ).loc main_arg4)) (m ((c : Thread nD τ).loc main_arg5)) (m ((c : Thread nD τ).loc main_arg6)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rw [dynSlice_congr S1x64 _ _ (startIdx (m ((c : Thread nD τ).loc main_arg6))) _ (fun k => ?_)]
  · rfl
  · match k with
    | ⟨0, _⟩ =>
      dsimp only [Fin.zero_eta, Matrix.cons_val_zero]
      after_results_simp
      rfl
    | ⟨1, _⟩ =>
      dsimp only [Fin.mk_one, Matrix.cons_val_one, Matrix.head_cons, Matrix.cons_val_zero]
      after_results_simp
      rfl

/-! ## The sums and the counts -/

set_option maxHeartbeats 4000000 in
/-- The first cloud's feature sums. -/
theorem V_v38 (c : Dev nD) : V m c main_v38 = Cert.ReferenceIdeal.ReadP.val_main_v38 (F := F) (m ((c : Thread nD τ).loc main_arg0)) (m ((c : Thread nD τ).loc main_arg2)) (m ((c : Thread nD τ).loc main_arg3)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 4000000 in
/-- The second cloud's feature sums. -/
theorem V_v81 (c : Dev nD) : V m c main_v81 = Cert.ReferenceIdeal.ReadP.val_main_v86 (F := F) (m ((c : Thread nD τ).loc main_arg1)) (m ((c : Thread nD τ).loc main_arg2)) (m ((c : Thread nD τ).loc main_arg3)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 4000000 in
/-- The first cloud's counts, as a column. -/
theorem V_v95 (c : Dev nD) : V m c main_v95
    = broadcastInDim S524288x1 ![0] bcast_S524288_S524288x1_0 (Cert.ReferenceIdeal.ReadP.val_main_v42 (F := F) (m ((c : Thread nD τ).loc main_arg0))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxHeartbeats 4000000 in
/-- The second cloud's counts, as a column. -/
theorem V_v96 (c : Dev nD) : V m c main_v96
    = broadcastInDim S524288x1 ![0] bcast_S524288_S524288x1_0 (Cert.ReferenceIdeal.ReadP.val_main_v90 (F := F) (m ((c : Thread nD τ).loc main_arg1))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

end Cert.KernelIdeal.HostChain

end
-- ==== Proof.RefValue.lean ====
/-
  The reference program's [524288, 64] stage before its final reshape, read at an element (r, f): it is the
  specification's value of the reference's own sums and counts and of the time feature at row r div 262144 (the batch),
  column f. Under the hypothesis that the kernel's time row equals either row of the reference's time feature, that is
  the kernel's whole-array function of the same sums, the counts as columns, and the kernel's time row.
-/
import proofs.«140665_g16836271800623_cont_week2b_1426_1_alg».proof.Proof.RefRead
import proofs.«140665_g16836271800623_cont_week2b_1426_1_alg».proof.Proof.TimeRow
import proofs.«140665_g16836271800623_cont_week2b_1426_1_alg».proof.Proof.Spec
import Idealize.ShloMosaic.Lib.Pipeline.Value
import Idealize.ShloMosaic.Lib.ValueIdx

noncomputable section

namespace Cert.RefValue

open Cert.ReferenceIdeal Cert.ReferenceIdeal.Gen Cert.ReferenceIdeal.ReadP
open Idealize.ShloMosaic Idealize.ShloMosaic.ValueIdx

/-- A [524288] array as a column, read at (r, 0): the array at r. -/
theorem col_apply (y : S524288.Idx → EReal) (j : S524288x1.Idx) :
    broadcastInDim S524288x1 ![0] bcast_S524288_S524288x1_0 y j = y (idx_main_v45 j) :=
  broadcastInDim_apply _ bcast_S524288_S524288x1_0 y j (idx_main_v45 j) (fun a => match a with
    | ⟨0, _⟩ => by show (j 0).val = if (524288 : Nat) = 1 then 0 else (j 0).val; rw [if_neg (by decide)])

/-- The row of an element, as the reference's two broadcasts compute it, is the specification's. -/
theorem idx46_eq (i : S524288x64.Idx) : idx_main_v46 i = Cert.Spec.colOf i :=
  funext fun a => match a with | ⟨0, _⟩ => rfl | ⟨1, _⟩ => rfl
theorem idx116_eq (i : S524288x64.Idx) : idx_main_v116 i = Cert.Spec.colOf i :=
  funext fun a => match a with | ⟨0, _⟩ => rfl | ⟨1, _⟩ => rfl

/-- The reference's last [524288, 64] stage is the kernel's whole-array function of the reference's own sums, of its counts
    as columns, and of the kernel's time row, where that row is either row of the reference's time feature. -/
theorem ref117_eq (x0 x1 : FVec Ideal S2x100000x3 .f32) (x2 : FVec Ideal S3x64 .f32) (x3 : FVec Ideal S64 .f32)
    (x4 : FVec Ideal S4x64 .f32) (x5 : FVec Ideal S64 .f32) (x6 : IVec S_ 32)
    (htf : ∀ (b : Fin 2) (f : Fin 64),
      Cert.KernelIdeal.HostChain.timeRow (F := Ideal) x4 x5 x6 (ix2 (n0 := 1) (n1 := 64) ⟨0, Nat.one_pos⟩ f)
        = val_main_v111 (F := Ideal) x4 x5 x6 (ix2 (n0 := 2) (n1 := 64) b f)) :
    val_main_v117 (F := Ideal) x0 x1 x2 x3 x4 x5 x6
      = Cert.Spec.KArr (val_main_v38 (F := Ideal) x0 x2 x3) (val_main_v86 (F := Ideal) x1 x2 x3)
          (broadcastInDim S524288x1 ![0] bcast_S524288_S524288x1_0 (val_main_v42 (F := Ideal) x0))
          (broadcastInDim S524288x1 ![0] bcast_S524288_S524288x1_0 (val_main_v90 (F := Ideal) x1))
          (Cert.KernelIdeal.HostChain.timeRow (F := Ideal) x4 x5 x6) := by
  funext i
  unfold Cert.Spec.KArr
  rw [Cert.Spec.kpt_eq_rpt]
  unfold Cert.Spec.rpt
  rw [col_apply, col_apply]
  rw [val_main_v117_apply, val_main_v114_apply, val_main_v96_apply, val_main_v95_apply, val_main_v47_apply,
    val_main_v94_apply, val_main_v93_apply, val_main_v92_apply, val_main_v91_apply,
    val_main_v46_apply, val_main_v45_apply, val_main_v44_apply, val_main_v43_apply,
    val_main_v113_apply, val_main_v112_apply,
    val_main_v116_apply, val_main_v115_apply, val_main_v100_apply, val_main_v99_apply, val_main_v97_apply, val_main_v98_apply]
  -- the reference's broadcasts of a count to [524288, 1] and on to [524288, 64] read it at the element's row
  have h94 : idx_main_v94 i = Cert.Spec.colOf i := funext fun a => match a with | ⟨0, _⟩ => rfl | ⟨1, _⟩ => rfl
  have h93 : ∀ j, idx_main_v93 j = idx_main_v45 j := fun _ => rfl
  have h115 : ∀ j, idx_main_v115 j = idx_main_v45 j := fun _ => rfl
  rw [h94, idx46_eq, idx116_eq, h93, h115]
  -- the time feature, broadcast over the 262144 voxels of a batch and flattened, is read at (batch of r, f)
  have h1 : (i 1).val < 64 := (i 1).isLt
  have h0 : (i 0).val < 524288 := (i 0).isLt
  have ht : val_main_v111 (F := Ideal) x4 x5 x6 (idx_main_v112 (idx_main_v113 i))
      = Cert.KernelIdeal.HostChain.timeRow (F := Ideal) x4 x5 x6 (Cert.Spec.rowOf i) := by
    have e1 : idx_main_v112 (idx_main_v113 i)
        = ix2 (n0 := 2) (n1 := 64) ⟨((i 0).val * 64 + (i 1).val) / 16777216, by omega⟩ ⟨(i 1).val, h1⟩ :=
      funext fun a => match a with
        | ⟨0, _⟩ => rfl
        | ⟨1, _⟩ => Fin.ext (by show ((i 0).val * 64 + (i 1).val) % 64 = (i 1).val; omega)
    rw [e1, ← htf]
  rw [ht]
  rfl

end Cert.RefValue

end
-- ==== Proof.Bridge.lean ====
/-
  The two idealized programs end with equal results.

  The kernel program's result is the reshape of KArr of the five arrays its region reads; four of those are the reference's
  own stage functions (the sums, the counts) of the arguments, and the fifth is the kernel's time row. The reference
  program's result is the reshape of its last [524288, 64] stage, which is the same KArr of the same five arrays once the
  kernel's time row is known to be either row of the reference's time feature. That last fact is where the precondition's
  range of the time index enters (outside it the kernel's clamped slice and the reference's one-hot product differ); no
  finiteness of an input is used.

  The theorem takes three facts as hypotheses — the kernel program's run with its result named, the range the
  precondition gives the time index, and the equality of the two time features in that range — and joins them.
-/
import proofs.«140665_g16836271800623_cont_week2b_1426_1_alg».proof.Defs
import proofs.«140665_g16836271800623_cont_week2b_1426_1_alg».proof.Proof.Gen.KernelIdeal
import proofs.«140665_g16836271800623_cont_week2b_1426_1_alg».proof.Proof.Gen.ReferenceIdeal
import proofs.«140665_g16836271800623_cont_week2b_1426_1_alg».proof.Proof.Gen.Pre_finite_inputs
import proofs.«140665_g16836271800623_cont_week2b_1426_1_alg».proof.Proof.FrameKI
import proofs.«140665_g16836271800623_cont_week2b_1426_1_alg».proof.Proof.HostChain
import proofs.«140665_g16836271800623_cont_week2b_1426_1_alg».proof.Proof.RefRun
import proofs.«140665_g16836271800623_cont_week2b_1426_1_alg».proof.Proof.RefRead
import proofs.«140665_g16836271800623_cont_week2b_1426_1_alg».proof.Proof.RefValue
import proofs.«140665_g16836271800623_cont_week2b_1426_1_alg».proof.Proof.Spec

noncomputable section

namespace Cert.Bridge

open Idealize.ShloMosaic Idealize.ShloMosaic.TcCoe Idealize.SL.Sem

theorem algebraic_of
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v99)
          = shapeCast Cert.KernelIdeal.S2x512x512x64 (Cert.Spec.KArr (Cert.KernelIdeal.Frame.V m c Cert.KernelIdeal.main_v38) (Cert.KernelIdeal.Frame.V m c Cert.KernelIdeal.main_v81) (Cert.KernelIdeal.Frame.V m c Cert.KernelIdeal.main_v95) (Cert.KernelIdeal.Frame.V m c Cert.KernelIdeal.main_v96) (Cert.KernelIdeal.Frame.V m c Cert.KernelIdeal.main_v97)) Cert.KernelIdeal.Gen.shapeCasts_S524288x64_S2x512x512x64
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)))
    (hrange : ∀ (m : (ℓ : Loc Cert.KernelIdeal.nD Cert.KernelIdeal.τ Cert.KernelIdeal.sig) → Buf (Elt Ideal) ℓ),
      Cert.Pre_KernelIdeal (hPre_finite_inputs := Cert.Pre_finite_inputs.Gen.facts) m → ∀ (c : Dev Cert.KernelIdeal.nD) (i : Cert.KernelIdeal.S_.Idx),
        -4 ≤ (m ((c.tc : Thread Cert.KernelIdeal.nD Cert.KernelIdeal.τ).loc Cert.KernelIdeal.main_arg6) i).toInt
        ∧ (m ((c.tc : Thread Cert.KernelIdeal.nD Cert.KernelIdeal.τ).loc Cert.KernelIdeal.main_arg6) i).toInt < 4)
    (htime : ∀ (x4 : FVec Ideal Cert.KernelIdeal.S4x64 .f32) (x5 : FVec Ideal Cert.KernelIdeal.S64 .f32) (x6 : IVec Cert.KernelIdeal.S_ 32),
      (∀ i, -4 ≤ (x6 i).toInt) → (∀ i, (x6 i).toInt < 4) → ∀ (b : Fin 2) (f : Fin 64),
        Cert.KernelIdeal.HostChain.timeRow (F := Ideal) x4 x5 x6 (ValueIdx.ix2 (n0 := 1) (n1 := 64) ⟨0, Nat.one_pos⟩ f)
          = Cert.ReferenceIdeal.ReadP.val_main_v111 (F := Ideal) x4 x5 x6 (ValueIdx.ix2 (n0 := 2) (n1 := 64) b f)) :
    Cert.algebraic_KernelIdeal_ReferenceIdeal := by
  intro m ρ m' ρ' hpre hagree
  refine ⟨_, hk m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.ReadP.val_main_v118_eq, h0, h1, h2, h3, h4, h5, h6]
  rw [Cert.KernelIdeal.HostChain.V_v38 (F := Ideal) m c, Cert.KernelIdeal.HostChain.V_v81 (F := Ideal) m c,
    Cert.KernelIdeal.HostChain.V_v95 (F := Ideal) m c, Cert.KernelIdeal.HostChain.V_v96 (F := Ideal) m c,
    Cert.KernelIdeal.HostChain.V_v97 (F := Ideal) m c]
  unfold Cert.ReferenceIdeal.ReadP.val_main_v118
  rw [Cert.RefValue.ref117_eq _ _ _ _ _ _ _
    (htime _ _ _ (fun i => (hrange m hpre c i).1) (fun i => (hrange m hpre c i).2))]

end Cert.Bridge

end
-- ==== Proof.lean ====
/-
  The certificate of the pillar-feature flow kernel against its reference.

  Both programs voxelize two point clouds into a 512 × 512 grid per batch, sum the points' features (a linear layer and
  a rectified maximum) and count the points per voxel, and return, per voxel and feature,
      (mean of the second cloud − mean of the first + time feature) · [the voxel holds a point of either cloud],
  the mean being the sum over max(count, 1). The kernel program computes the sums, the counts and the time feature on
  the host and finishes in one pipelined region; the reference does everything on the host.

  Three differences between the two, all immaterial on the extended reals inside the stated domain:
  the kernel multiplies by 1 / max(count, 1) where the reference divides by max(count, 1) (one function: the divisor is
  never zero); the kernel turns the occupancy bit into a number through a 32-bit integer read signed, the reference
  directly (the same 0 or 1); and the kernel takes the time feature as the row of W_time at the time index, by a slice
  whose start is clamped into the table, where the reference multiplies a one-hot row, built by a scatter that drops an
  index outside the table, with W_time. The last two agree exactly when the time index addresses the table, −4 ≤ i < 4
  (a negative index counting from the end, as both programs read it); outside that range they differ, so the
  precondition carries the range. No finiteness of an input is used.

  The frames: the reference is host operations only, its run read back; the kernel program's frame (at the word level
  and idealized, one text for any float instance) is the region's frame run continued by the last host operation, the
  arguments being neither staged by the region nor written by any host operation.
-/
import proofs.«140665_g16836271800623_cont_week2b_1426_1_alg».proof.Defs
import proofs.«140665_g16836271800623_cont_week2b_1426_1_alg».proof.Proof.Gen.Kernel
import proofs.«140665_g16836271800623_cont_week2b_1426_1_alg».proof.Proof.Gen.KernelIdeal
import proofs.«140665_g16836271800623_cont_week2b_1426_1_alg».proof.Proof.Gen.ReferenceIdeal
import proofs.«140665_g16836271800623_cont_week2b_1426_1_alg».proof.Proof.Gen.Pre_finite_inputs
import proofs.«140665_g16836271800623_cont_week2b_1426_1_alg».proof.Proof.FrameK
import proofs.«140665_g16836271800623_cont_week2b_1426_1_alg».proof.Proof.FrameKI
import proofs.«140665_g16836271800623_cont_week2b_1426_1_alg».proof.Proof.RefRun
import proofs.«140665_g16836271800623_cont_week2b_1426_1_alg».proof.Proof.RefRead
import proofs.«140665_g16836271800623_cont_week2b_1426_1_alg».proof.Proof.KValue
import proofs.«140665_g16836271800623_cont_week2b_1426_1_alg».proof.Proof.TimeFeat
import proofs.«140665_g16836271800623_cont_week2b_1426_1_alg».proof.Proof.Bridge

noncomputable section

namespace Cert.Proof

open Idealize.ShloMosaic Idealize.SL.Sem

/-- The word-level kernel program runs and leaves its arguments unchanged. -/
theorem frame_k : Cert.frame_Kernel := fun m ρ _ => Cert.Kernel.Frame.frame m ρ

/-- So does the idealized kernel program. -/
theorem frame_ki : Cert.frame_KernelIdeal := fun m ρ _ => Cert.KernelIdeal.Frame.frame m ρ

/-- The reference is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs end with equal results: the kernel program's run with its result named, the range the
    precondition gives the time index, and the two time features' equality in that range, joined. -/
theorem algebraic : Cert.algebraic_KernelIdeal_ReferenceIdeal :=
  Cert.Bridge.algebraic_of Cert.KernelIdeal.KValue.kernel_run Cert.TimeFeat.idx_range Cert.TimeFeat.timeRow_eq

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
